-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x6 : Shape := ⟨3, ![2, 512, 6]⟩
abbrev S2x256x256x2 : Shape := ⟨4, ![2, 256, 256, 2]⟩
abbrev S_ : Shape := ⟨0, ![]⟩

class Facts : Prop where
  bcast_S_S2x512x6 : S_.BroadcastsInDim S2x512x6 (![] : Fin 0 → Fin S2x512x6.rank)
  reducesTo_S2x512x6_S_d0_1_2 : S2x512x6.ReducesTo [0, 1, 2] S_
  h_S_ : 0 < S_.numel
  bcast_S_S2x256x256x2 : S_.BroadcastsInDim S2x256x256x2 (![] : Fin 0 → Fin S2x256x256x2.rank)
  reducesTo_S2x256x256x2_S_d0_1_2_3 : S2x256x256x2.ReducesTo [0, 1, 2, 3] S_

variable [Facts]

def fn {F : FTy → Type} [FloatOps F] (main_arg0 : FVec F S2x512x6 .f32) (main_arg1 : FVec F S2x256x256x2 .f32) : IVec S_ 1 :=
  let main_v0 : FVec F S2x512x6 .f32 := Host.absf main_arg0
  let main_cst : FVec F S_ .f32 := constant S_ .f32 0x7F800000#32
  let main_v1 : FVec F S2x512x6 .f32 := broadcastInDim S2x512x6 ![] bcast_S_S2x512x6 main_cst
  let main_v2 : IVec S2x512x6 1 := cmpf .olt main_v0 main_v1
  let main_c : IVec S_ 1 := constantI S_ 1 1#1
  let main_v3 : IVec S_ 1 := (fun x v => Host.reduce IntOp.andi x v reducesTo_S2x512x6_S_d0_1_2 h_S_) main_v2 main_c
  let main_v4 : FVec F S2x256x256x2 .f32 := Host.absf main_arg1
  let main_cst_0 : FVec F S_ .f32 := constant S_ .f32 0x7F800000#32
  let main_v5 : FVec F S2x256x256x2 .f32 := broadcastInDim S2x256x256x2 ![] bcast_S_S2x256x256x2 main_cst_0
  let main_v6 : IVec S2x256x256x2 1 := cmpf .olt main_v4 main_v5
  let main_c_1 : IVec S_ 1 := constantI S_ 1 1#1
  let main_v7 : IVec S_ 1 := (fun x v => Host.reduce IntOp.andi x v reducesTo_S2x256x256x2_S_d0_1_2_3 h_S_) main_v6 main_c_1
  let main_v8 : IVec S_ 1 := andi main_v3 main_v7
  main_v8
-- ==== Kernel.lean ====
abbrev S2x512x6 : Shape := ⟨3, ![2, 512, 6]⟩
abbrev S2x256x256x2 : Shape := ⟨4, ![2, 256, 256, 2]⟩
abbrev S2x6x512 : Shape := ⟨3, ![2, 6, 512]⟩
abbrev S2x2x256x256 : Shape := ⟨4, ![2, 2, 256, 256]⟩
abbrev S1x2x8x256 : Shape := ⟨4, ![1, 2, 8, 256]⟩
abbrev S1x6x512 : Shape := ⟨3, ![1, 6, 512]⟩
abbrev S1x1x8x256 : Shape := ⟨4, ![1, 1, 8, 256]⟩
abbrev S8x256 : Shape := ⟨2, ![8, 256]⟩
abbrev S1x1x512 : Shape := ⟨3, ![1, 1, 512]⟩
abbrev S512 : Shape := ⟨1, ![512]⟩
abbrev S8x256x1 : Shape := ⟨3, ![8, 256, 1]⟩
abbrev S8x256x512 : Shape := ⟨3, ![8, 256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x512x6, .f32⟩
  | .hbm, ⟨1, _⟩ => ⟨S2x256x256x2, .f32⟩
  | .hbm, ⟨2, _⟩ => ⟨S2x6x512, .f32⟩
  | .hbm, ⟨3, _⟩ => ⟨S2x2x256x256, .f32⟩
  | .hbm, ⟨4, _⟩ => ⟨S2x2x256x256, .f32⟩
  | .hbm, ⟨5, _⟩ => ⟨S2x256x256x2, .f32⟩
  | .local _ .vmem, ⟨0, _⟩ => ⟨S1x2x8x256, .f32⟩
  | .local _ .vmem, ⟨1, _⟩ => ⟨S1x2x8x256, .f32⟩
  | .local _ .vmem, ⟨2, _⟩ => ⟨S1x6x512, .f32⟩
  | .local _ .vmem, ⟨3, _⟩ => ⟨S1x6x512, .f32⟩
  | .local _ .vmem, ⟨4, _⟩ => ⟨S1x2x8x256, .f32⟩
  | .local _ .vmem, ⟨5, _⟩ => ⟨S1x2x8x256, .f32⟩
  | _, _ => ⟨S2x512x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x6_S2x6x512_0_2_1 : S2x512x6.Transposes [0, 2, 1] S2x6x512
  transposes_S2x256x256x2_S2x2x256x256_0_3_1_2 : S2x256x256x2.Transposes [0, 3, 1, 2] S2x2x256x256
  inb_S1x2x8x256_S1x1x8x256_0_0_0_0 : ∀ a, (![0, 0, 0, 0] : Fin 4 → Nat) a + S1x1x8x256.size a ≤ S1x2x8x256.size a
  h_S1x1x8x256 : 0 < S1x1x8x256.numel
  shapeCasts_S1x1x8x256_S8x256 : S1x1x8x256.ShapeCasts S8x256
  inb_S1x2x8x256_S1x1x8x256_0_1_0_0 : ∀ a, (![0, 1, 0, 0] : Fin 4 → Nat) a + S1x1x8x256.size a ≤ S1x2x8x256.size a
  inb_S1x6x512_S1x1x512_0_0_0 : ∀ a, (![0, 0, 0] : Fin 3 → Nat) a + S1x1x512.size a ≤ S1x6x512.size a
  h_S1x1x512 : 0 < S1x1x512.numel
  shapeCasts_S1x1x512_S512 : S1x1x512.ShapeCasts S512
  inb_S1x6x512_S1x1x512_0_1_0 : ∀ a, (![0, 1, 0] : Fin 3 → Nat) a + S1x1x512.size a ≤ S1x6x512.size a
  inb_S1x6x512_S1x1x512_0_2_0 : ∀ a, (![0, 2, 0] : Fin 3 → Nat) a + S1x1x512.size a ≤ S1x6x512.size a
  inb_S1x6x512_S1x1x512_0_3_0 : ∀ a, (![0, 3, 0] : Fin 3 → Nat) a + S1x1x512.size a ≤ S1x6x512.size a
  shapeCasts_S8x256_S8x256x1 : S8x256.ShapeCasts S8x256x1
  shapeCasts_S512_S1x1x512 : S512.ShapeCasts S1x1x512
  broadcasts_S8x256x1_S8x256x512 : S8x256x1.Broadcasts S8x256x512
  broadcasts_S1x1x512_S8x256x512 : S1x1x512.Broadcasts S8x256x512
  reduces_S8x256x512_S8x256 : S8x256x512.Reduces [2] S8x256
  shapeCasts_S8x256_S1x1x8x256 : S8x256.ShapeCasts S1x1x8x256
  transposes_S2x2x256x256_S2x256x256x2_0_2_3_1 : S2x2x256x256.Transposes [0, 2, 3, 1] S2x256x256x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x8x256.size a ≤ S2x2x256x256.size a
  hwx0_0 : ∀ i : grid0.Coords, EltTy.bits .f32 = 32 ∨ (Rect.block (s := S2x2x256x256) S1x2x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x512.size a ≤ S2x6x512.size a
  hwx0_1 : ∀ i : grid0.Coords, EltTy.bits .f32 = 32 ∨ (Rect.block (s := S2x6x512) S1x6x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x8x256.size a ≤ S2x2x256x256.size a
  hwx0_2 : ∀ i : grid0.Coords, EltTy.bits .f32 = 32 ∨ (Rect.block (s := S2x2x256x256) S1x2x8x256.size (cc0_transform_2 i) (hinb0_2 i)).WholeWords (EltTy.packing .f32)

variable [Facts₀]

abbrev win0_0 : Pipeline.Window sig grid0 :=
  Pipeline.Window.ofSpec (Memref.whole main_v1) S1x2x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x6x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x6 : Shape := ⟨3, ![2, 512, 6]⟩
abbrev S2x256x256x2 : Shape := ⟨4, ![2, 256, 256, 2]⟩
abbrev S2x512x1 : Shape := ⟨3, ![2, 512, 1]⟩
abbrev S2x512 : Shape := ⟨2, ![2, 512]⟩
abbrev S2x512x2 : Shape := ⟨3, ![2, 512, 2]⟩
abbrev S2x256x256x1x2 : Shape := ⟨5, ![2, 256, 256, 1, 2]⟩
abbrev S2x1x1x512x2 : Shape := ⟨5, ![2, 1, 1, 512, 2]⟩
abbrev S2x256x256x512x2 : Shape := ⟨5, ![2, 256, 256, 512, 2]⟩
abbrev S_ : Shape := ⟨0, ![]⟩
abbrev S2x256x256x512 : Shape := ⟨4, ![2, 256, 256, 512]⟩
abbrev S2x256x256x512x1 : Shape := ⟨5, ![2, 256, 256, 512, 1]⟩
abbrev S2x1x1x512x1 : Shape := ⟨5, ![2, 1, 1, 512, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x512x6, .f32⟩
  | .hbm, ⟨1, _⟩ => ⟨S2x256x256x2, .f32⟩
  | .hbm, ⟨2, _⟩ => ⟨S2x512x1, .f32⟩
  | .hbm, ⟨3, _⟩ => ⟨S2x512, .f32⟩
  | .hbm, ⟨4, _⟩ => ⟨S2x512x1, .f32⟩
  | .hbm, ⟨5, _⟩ => ⟨S2x512, .f32⟩
  | .hbm, ⟨6, _⟩ => ⟨S2x512x1, .f32⟩
  | .hbm, ⟨7, _⟩ => ⟨S2x512, .f32⟩
  | .hbm, ⟨8, _⟩ => ⟨S2x512x1, .f32⟩
  | .hbm, ⟨9, _⟩ => ⟨S2x512, .f32⟩
  | .hbm, ⟨10, _⟩ => ⟨S2x512x1, .f32⟩
  | .hbm, ⟨11, _⟩ => ⟨S2x512, .f32⟩
  | .hbm, ⟨12, _⟩ => ⟨S2x512x1, .f32⟩
  | .hbm, ⟨13, _⟩ => ⟨S2x512, .f32⟩
  | .hbm, ⟨14, _⟩ => ⟨S2x512x1, .f32⟩
  | .hbm, ⟨15, _⟩ => ⟨S2x512x1, .f32⟩
  | .hbm, ⟨16, _⟩ => ⟨S2x512x2, .f32⟩
  | .hbm, ⟨17, _⟩ => ⟨S2x256x256x1x2, .f32⟩
  | .hbm, ⟨18, _⟩ => ⟨S2x1x1x512x2, .f32⟩
  | .hbm, ⟨19, _⟩ => ⟨S2x256x256x512x2, .f32⟩
  | .hbm, ⟨20, _⟩ => ⟨S2x256x256x512x2, .f32⟩
  | .hbm, ⟨21, _⟩ => ⟨S2x256x256x512x2, .f32⟩
  | .hbm, ⟨22, _⟩ => ⟨S2x256x256x512x2, .f32⟩
  | .hbm, ⟨23, _⟩ => ⟨S_, .f32⟩
  | .hbm, ⟨24, _⟩ => ⟨S2x256x256x512, .f32⟩
  | .hbm, ⟨25, _⟩ => ⟨S2x256x256x512x1, .f32⟩
  | .hbm, ⟨26, _⟩ => ⟨S2x1x1x512x1, .f32⟩
  | .hbm, ⟨27, _⟩ => ⟨S2x1x1x512x1, .f32⟩
  | .hbm, ⟨28, _⟩ => ⟨S2x256x256x512x1, .f32⟩
  | .hbm, ⟨29, _⟩ => ⟨S2x1x1x512x1, .f32⟩
  | .hbm, ⟨30, _⟩ => ⟨S2x256x256x512x1, .f32⟩
  | .hbm, ⟨31, _⟩ => ⟨S2x256x256x512x1, .f32⟩
  | .hbm, ⟨32, _⟩ => ⟨S2x256x256x512x1, .f32⟩
  | .hbm, ⟨33, _⟩ => ⟨S2x256x256x512x1, .f32⟩
  | .hbm, ⟨34, _⟩ => ⟨S2x256x256x512x1, .f32⟩
  | .hbm, ⟨35, _⟩ => ⟨S2x256x256x512x1, .f32⟩
  | .hbm, ⟨36, _⟩ => ⟨S2x256x256x512x1, .f32⟩
  | .hbm, ⟨37, _⟩ => ⟨S2x256x256x512x1, .f32⟩
  | .hbm, ⟨38, _⟩ => ⟨S2x256x256x512, .f32⟩
  | .hbm, ⟨39, _⟩ => ⟨S2x256x256x512x1, .f32⟩
  | .hbm, ⟨40, _⟩ => ⟨S2x256x256x512, .f32⟩
  | .hbm, ⟨41, _⟩ => ⟨S2x256x256x512, .f32⟩
  | .hbm, ⟨42, _⟩ => ⟨S2x256x256x512x1, .f32⟩
  | .hbm, ⟨43, _⟩ => ⟨S2x256x256x512x1, .f32⟩
  | .hbm, ⟨44, _⟩ => ⟨S2x256x256x512x2, .f32⟩
  | .hbm, ⟨45, _⟩ => ⟨S2x256x256x512x2, .f32⟩
  | .hbm, ⟨46, _⟩ => ⟨S2x256x256x512x2, .f32⟩
  | .hbm, ⟨47, _⟩ => ⟨S_, .f32⟩
  | .hbm, ⟨48, _⟩ => ⟨S2x256x256x2, .f32⟩
  | _, _ => ⟨S2x512x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_0 : Ref sig .tc := ⟨.hbm, 47, rfl⟩
abbrev main_v44 : Ref sig .tc := ⟨.hbm, 48, rfl⟩

abbrev nD : Nat := 1
abbrev τ : Topo := Topo.v7x

variable {F : FTy → Type} [FloatOps F]

class Facts₀ : Prop where
  slices_S2x512x6_S2x512x1_0_0_0 : S2x512x6.Slices ![0, 0, 0] S2x512x1
  shapeCasts_S2x512x1_S2x512 : S2x512x1.ShapeCasts S2x512
  slices_S2x512x6_S2x512x1_0_0_1 : S2x512x6.Slices ![0, 0, 1] S2x512x1
  slices_S2x512x6_S2x512x1_0_0_2 : S2x512x6.Slices ![0, 0, 2] S2x512x1
  slices_S2x512x6_S2x512x1_0_0_3 : S2x512x6.Slices ![0, 0, 3] S2x512x1
  slices_S2x512x6_S2x512x1_0_0_4 : S2x512x6.Slices ![0, 0, 4] S2x512x1
  slices_S2x512x6_S2x512x1_0_0_5 : S2x512x6.Slices ![0, 0, 5] S2x512x1
  bcast_S2x512_S2x512x1_0_1 : S2x512.BroadcastsInDim S2x512x1 (![0, 1] : Fin 2 → Fin S2x512x1.rank)
  concatenates_S2x512x1_S2x512x1_S2x512x2_d2 : Shape.Concatenates [S2x512x1, S2x512x1] S2x512x2 2
  bcast_S2x256x256x2_S2x256x256x1x2_0_1_2_4 : S2x256x256x2.BroadcastsInDim S2x256x256x1x2 (![0, 1, 2, 4] : Fin 4 → Fin S2x256x256x1x2.rank)
  bcast_S2x512x2_S2x1x1x512x2_0_3_4 : S2x512x2.BroadcastsInDim S2x1x1x512x2 (![0, 3, 4] : Fin 3 → Fin S2x1x1x512x2.rank)
  bcast_S2x256x256x1x2_S2x256x256x512x2_0_1_2_3_4 : S2x256x256x1x2.BroadcastsInDim S2x256x256x512x2 (![0, 1, 2, 3, 4] : Fin 5 → Fin S2x256x256x512x2.rank)
  bcast_S2x1x1x512x2_S2x256x256x512x2_0_1_2_3_4 : S2x1x1x512x2.BroadcastsInDim S2x256x256x512x2 (![0, 1, 2, 3, 4] : Fin 5 → Fin S2x256x256x512x2.rank)
  reducesTo_S2x256x256x512x2_S2x256x256x512_d4 : S2x256x256x512x2.ReducesTo [4] S2x256x256x512
  h_S_ : 0 < S_.numel
  bcast_S2x256x256x512_S2x256x256x512x1_0_1_2_3 : S2x256x256x512.BroadcastsInDim S2x256x256x512x1 (![0, 1, 2, 3] : Fin 4 → Fin S2x256x256x512x1.rank)
  bcast_S2x512_S2x1x1x512x1_0_3 : S2x512.BroadcastsInDim S2x1x1x512x1 (![0, 3] : Fin 2 → Fin S2x1x1x512x1.rank)
  bcast_S2x1x1x512x1_S2x256x256x512x1_0_1_2_3_4 : S2x1x1x512x1.BroadcastsInDim S2x256x256x512x1 (![0, 1, 2, 3, 4] : Fin 5 → Fin S2x256x256x512x1.rank)
  slices_S2x256x256x512x2_S2x256x256x512x1_0_0_0_0_0 : S2x256x256x512x2.Slices ![0, 0, 0, 0, 0] S2x256x256x512x1
  shapeCasts_S2x256x256x512x1_S2x256x256x512 : S2x256x256x512x1.ShapeCasts S2x256x256x512
  slices_S2x256x256x512x2_S2x256x256x512x1_0_0_0_0_1 : S2x256x256x512x2.Slices ![0, 0, 0, 0, 1] S2x256x256x512x1
  concatenates_S2x256x256x512x1_S2x256x256x512x1_S2x256x256x512x2_d4 : Shape.Concatenates [S2x256x256x512x1, S2x256x256x512x1] S2x256x256x512x2 4
  bcast_S2x256x256x512x1_S2x256x256x512x2_0_1_2_3_4 : S2x256x256x512x1.BroadcastsInDim S2x256x256x512x2 (![0, 1, 2, 3, 4] : Fin 5 → Fin S2x256x256x512x2.rank)
  reducesTo_S2x256x256x512x2_S2x256x256x2_d3 : S2x256x256x512x2.ReducesTo [3] S2x256x256x2

variable [Facts₀]

class Facts : Prop extends Facts₀ where

variable [Facts]
-- ==== Proof.FalloffLaw.lean ====
/-
  One vortex's contribution to the velocity at one point, in the two arrangements the two programs compute it in,
  and the law that joins them on the extended reals.

  With `dy`, `dx` the point's offsets from the vortex, `s = dy² + dx²`, strength `tau` and width `sig`:
  the kernel weighs the vortex by `tau · (exp ((0 - s) · (1 / sig²)) · rsqrt s)`, the reference by
  `tau · (exp ((-s) / sig²) / sqrt s)`. Off the corners the two are the same real number. At `sig = 0` both exponents are
  `-∞` when `s > 0`. At `s = 0` the two weights may differ (the quotient `0 / 0` and the product `0 · ∞` are read
  by different conventions), but there `dy = dx = 0`, and each weight is only ever multiplied by `dx` or by `-dy`:
  the product is `0` on both sides.
-/
import Idealize.ShloMosaic.PureOps.Ideal

noncomputable section

namespace Cert.VortexField

open Idealize.ShloMosaic

/-- The kernel's weight of one vortex: `tau · (exp ((0 - s) · (1 / sig²)) · rsqrt s)`, `s = dy² + dx²`. -/
def wK (dy dx tau sig : EReal) : EReal :=
  tau * (Ideal.exp ((0 - (dy * dy + dx * dx)) * Ideal.div 1 (sig * sig)) * Ideal.rsqrt (dy * dy + dx * dx))

/-- The reference's weight of one vortex: `tau · (exp ((-s) / sig²) / sqrt s)`, `s = dy² + dx²`. -/
def wR (dy dx tau sig : EReal) : EReal :=
  tau * Ideal.div (Ideal.exp (Ideal.div (-(dy * dy + dx * dx)) (sig * sig))) (Ideal.sqrt (dy * dy + dx * dx))

/-- The two exponents agree at a positive squared distance, whatever the width: off `sig² = 0` both are
    `(-s) · (sig²)⁻¹`, at `sig² = 0` both are `-∞`. -/
theorem exponent_eq {s : ℝ} (hs : 0 < s) (σ : ℝ) :
    (0 - (s : EReal)) * Ideal.div 1 (σ : EReal) = Ideal.div (-(s : EReal)) (σ : EReal) := by
  rw [zero_sub]
  by_cases hσ : σ = 0
  · subst hσ
    have hneg : (-(s : EReal)) < 0 := by
      rw [← EReal.coe_neg]; exact_mod_cast neg_neg_of_pos hs
    rw [Ideal.div, Ideal.div, EReal.coe_zero, if_pos rfl, if_pos rfl, if_pos zero_lt_one, if_neg (not_lt.mpr hneg.le)]
    rw [← EReal.coe_neg]
    exact EReal.coe_mul_top_of_neg (neg_neg_of_pos hs)
  · have hσ' : (σ : EReal) ≠ 0 := by exact_mod_cast hσ
    rw [Ideal.div, Ideal.div, if_neg hσ', if_neg hσ', one_mul]

/-- The two falloffs agree at a positive squared distance: the square root is a positive real, so the quotient by
    it is the product with its reciprocal, which is what `rsqrt` is there. -/
theorem falloff_eq {s : ℝ} (hs : 0 < s) (σ : ℝ) :
    Ideal.exp ((0 - (s : EReal)) * Ideal.div 1 (σ : EReal)) * Ideal.rsqrt (s : EReal)
      = Ideal.div (Ideal.exp (Ideal.div (-(s : EReal)) (σ : EReal))) (Ideal.sqrt (s : EReal)) := by
  have hq : 0 < Real.sqrt s := Real.sqrt_pos.mpr hs
  rw [exponent_eq hs σ, Ideal.rsqrt_coe, Ideal.sqrt_coe, if_neg (not_lt.mpr hs.le), if_neg hs.ne',
    if_neg (not_lt.mpr hs.le), Ideal.div_coe hq.ne', one_div]

/-- THE LAW: the two weights, multiplied by a factor that vanishes where the squared distance does, are equal —
    for real offsets and a real width, at every strength. -/
theorem wK_mul_eq_wR_mul (dy dx sig : ℝ) (tau e : EReal) (he : dy * dy + dx * dx = 0 → e = 0) :
    wK dy dx tau sig * e = wR dy dx tau sig * e := by
  have hs : ((dy : EReal) * dy + (dx : EReal) * dx) = ((dy * dy + dx * dx : ℝ) : EReal) := by
    rw [EReal.coe_add, EReal.coe_mul, EReal.coe_mul]
  have hσ : ((sig : EReal) * sig) = ((sig * sig : ℝ) : EReal) := (EReal.coe_mul _ _).symm
  unfold wK wR
  rw [hs, hσ]
  have h0 : 0 ≤ dy * dy + dx * dx := add_nonneg (mul_self_nonneg dy) (mul_self_nonneg dx)
  rcases h0.eq_or_lt with hz | hpos
  · rw [he hz.symm, mul_zero, mul_zero]
  · rw [falloff_eq hpos]

end Cert.VortexField

end
-- ==== Proof.VelocityField.lean ====
/-
  The velocity field the two programs compute, as ONE function of the two argument arrays, index by index.

  The features array holds, per batch `b` and vortex `n`, the row `(y, x, tau, sig, ·, ·)`; the points array holds, per
  batch and grid position `(h, w)`, the pair `(py, px)`. The velocity at `(b, h, w)` is the sum over the 512 vortices of
  the batch of each one's weight times `px - x` (channel 0) or times `-(py - y)` (channel 1). `velK` is that sum with the
  kernel's weight, `velR` with the reference's; `velT` is `velK` over the channel-major copies of the two arrays the
  kernel's region works on, and `blkK` over one block of them. On real inputs `velK = velR`, term by term, by the law of
  the weights.
-/
import proofs.«145549_j83434034692733_1_alg».proof.Proof.FalloffLaw
import Idealize.ShloMosaic.Lib.ValueIdx

noncomputable section

open scoped BigOperators

namespace Cert.VortexField

open Idealize.ShloMosaic Idealize.ShloMosaic.ValueIdx

/-- One vortex's contribution to channel `c` of the velocity at a point `(py, px)`, kernel's arrangement:
    the weight times `px - x` for channel 0, times `0 - (py - y)` for channel 1. -/
def contribK (py px y x tau sig : EReal) (c : Nat) : EReal :=
  wK (py - y) (px - x) tau sig * (if c = 0 then px - x else 0 - (py - y))

/-- The same in the reference's arrangement: the reference's weight, and `-(py - y)` for channel 1. -/
def contribR (py px y x tau sig : EReal) (c : Nat) : EReal :=
  wR (py - y) (px - x) tau sig * (if c = 0 then px - x else -(py - y))

/-- On real coordinates and a real width the two contributions are equal: where the squared distance vanishes both
    offsets do, and with them the factor the weight is multiplied by. -/
theorem contribK_eq_contribR (py px y x sig : ℝ) (tau : EReal) (c : Nat) :
    contribK py px y x tau sig c = contribR py px y x tau sig c := by
  unfold contribK contribR
  have hy : ((py : EReal) - (y : EReal)) = ((py - y : ℝ) : EReal) := (EReal.coe_sub _ _).symm
  have hx : ((px : EReal) - (x : EReal)) = ((px - x : ℝ) : EReal) := (EReal.coe_sub _ _).symm
  rw [hy, hx, zero_sub]
  refine wK_mul_eq_wR_mul (py - y) (px - x) sig tau _ fun h0 => ?_
  have hy0 : (py - y) * (py - y) = 0 := by
    nlinarith [mul_self_nonneg (py - y), mul_self_nonneg (px - x)]
  have hx0 : (px - x) * (px - x) = 0 := by
    nlinarith [mul_self_nonneg (py - y), mul_self_nonneg (px - x)]
  have ey : py - y = 0 := mul_self_eq_zero.mp hy0
  have ex : px - x = 0 := mul_self_eq_zero.mp hx0
  by_cases hc : c = 0
  · rw [if_pos hc, ex, EReal.coe_zero]
  · rw [if_neg hc, ey, EReal.coe_zero, neg_zero]

/-- The features array's shape `[2, 512, 6]` and the points' (and the result's) `[2, 256, 256, 2]`; the channel-major
    copies `[2, 6, 512]` and `[2, 2, 256, 256]`; one block of each, `[1, 6, 512]` and `[1, 2, 8, 256]`. -/
abbrev SFeat : Shape := ⟨3, ![2, 512, 6]⟩
abbrev SPts : Shape := ⟨4, ![2, 256, 256, 2]⟩
abbrev SFeatT : Shape := ⟨3, ![2, 6, 512]⟩
abbrev SPtsT : Shape := ⟨4, ![2, 2, 256, 256]⟩
abbrev SFeatB : Shape := ⟨3, ![1, 6, 512]⟩
abbrev SPtsB : Shape := ⟨4, ![1, 2, 8, 256]⟩

/-- The velocity field, kernel's arrangement, over the argument arrays. -/
def velK (vf : SFeat.Idx → EReal) (pts : SPts.Idx → EReal) : SPts.Idx → EReal := fun i =>
  ∑ n : Fin 512, contribK (pts (ix4 (i 0) (i 1) (i 2) (0 : Fin 2))) (pts (ix4 (i 0) (i 1) (i 2) (1 : Fin 2)))
    (vf (ix3 (i 0) n (0 : Fin 6))) (vf (ix3 (i 0) n (1 : Fin 6))) (vf (ix3 (i 0) n (2 : Fin 6))) (vf (ix3 (i 0) n (3 : Fin 6))) (i 3).val

/-- The velocity field, reference's arrangement, over the argument arrays. -/
def velR (vf : SFeat.Idx → EReal) (pts : SPts.Idx → EReal) : SPts.Idx → EReal := fun i =>
  ∑ n : Fin 512, contribR (pts (ix4 (i 0) (i 1) (i 2) (0 : Fin 2))) (pts (ix4 (i 0) (i 1) (i 2) (1 : Fin 2)))
    (vf (ix3 (i 0) n (0 : Fin 6))) (vf (ix3 (i 0) n (1 : Fin 6))) (vf (ix3 (i 0) n (2 : Fin 6))) (vf (ix3 (i 0) n (3 : Fin 6))) (i 3).val

/-- The kernel's arrangement over the channel-major copies: `ft[b, k, n]` the features, `pt[b, k, h, w]` the points,
    the result `[b, c, h, w]`. -/
def velT (ft : SFeatT.Idx → EReal) (pt : SPtsT.Idx → EReal) : SPtsT.Idx → EReal := fun i =>
  ∑ n : Fin 512, contribK (pt (ix4 (i 0) (0 : Fin 2) (i 2) (i 3))) (pt (ix4 (i 0) (1 : Fin 2) (i 2) (i 3)))
    (ft (ix3 (i 0) (0 : Fin 6) n)) (ft (ix3 (i 0) (1 : Fin 6) n)) (ft (ix3 (i 0) (2 : Fin 6) n)) (ft (ix3 (i 0) (3 : Fin 6) n)) (i 1).val

/-- The same over ONE block of each: eight rows of one batch's points against that batch's whole vortex table. -/
def blkK (x0 : SPtsB.Idx → EReal) (x1 : SFeatB.Idx → EReal) : SPtsB.Idx → EReal := fun y =>
  ∑ n : Fin 512, contribK (x0 (ix4 (0 : Fin 1) (0 : Fin 2) (y 2) (y 3))) (x0 (ix4 (0 : Fin 1) (1 : Fin 2) (y 2) (y 3)))
    (x1 (ix3 (0 : Fin 1) (0 : Fin 6) n)) (x1 (ix3 (0 : Fin 1) (1 : Fin 6) n)) (x1 (ix3 (0 : Fin 1) (2 : Fin 6) n)) (x1 (ix3 (0 : Fin 1) (3 : Fin 6) n)) (y 1).val

/-- On arrays of real numbers the two arrangements of the field are one function. -/
theorem velK_eq_velR (vf : SFeat.Idx → EReal) (pts : SPts.Idx → EReal)
    (hvf : ∀ j, ∃ r : ℝ, vf j = (r : EReal)) (hpts : ∀ j, ∃ r : ℝ, pts j = (r : EReal)) :
    velK vf pts = velR vf pts := by
  funext i
  unfold velK velR
  refine Finset.sum_congr rfl fun n _ => ?_
  obtain ⟨py, hpy⟩ := hpts (ix4 (i 0) (i 1) (i 2) (0 : Fin 2))
  obtain ⟨px, hpx⟩ := hpts (ix4 (i 0) (i 1) (i 2) (1 : Fin 2))
  obtain ⟨y, hy⟩ := hvf (ix3 (i 0) n (0 : Fin 6))
  obtain ⟨x, hx⟩ := hvf (ix3 (i 0) n (1 : Fin 6))
  obtain ⟨sg, hsg⟩ := hvf (ix3 (i 0) n (3 : Fin 6))
  rw [hpy, hpx, hy, hx, hsg]
  exact contribK_eq_contribR py px y x sg _ _

end Cert.VortexField

end
-- ==== Proof.KernelBlock.lean ====
/-
  What the kernel's body leaves in its output block, index by index.

  The body holds one block of the channel-major points, `x0[0, k, r, q]` (k = 0 the y-coordinates, k = 1 the x-coordinates
  of eight rows of 256 points), and one batch's whole vortex table `x1[0, j, n]` (j = 0 … 3: y, x, strength, width).
  It re-lays the rows as `[8, 256, 1]` and the table's rows as `[1, 1, 512]`, broadcasts both to `[8, 256, 512]`,
  computes every (point, vortex) pair's weight there, and sums over the vortex axis. Read at an index each re-laying is
  the operand at the index with the same coordinates; the sum over the last axis is the sum over its 512 coordinates. So
  the block it stores, channel 0 through the first half and channel 1 through the second, is `blkK x0 x1`.
-/
import proofs.«145549_j83434034692733_1_alg».proof.Proof.Gen.KernelIdeal.Frame
import proofs.«145549_j83434034692733_1_alg».proof.Proof.VelocityField
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.VortexField

open Cert.KernelIdeal Cert.KernelIdeal.Gen Idealize.ShloMosaic Idealize.ShloMosaic.ValueIdx

variable {α : Type}

/-! ## The body's re-layings, read at an index -/

/-- `[1, 1, 8, 256] → [8, 256]`: entry `(r, q)` is the operand's `(0, 0, r, q)`. -/
theorem rows_of_block (v : S1x1x8x256.Idx → α) (h : S1x1x8x256.ShapeCasts S8x256) (r : Fin 8) (q : Fin 256) :
    shapeCast S8x256 v h (ix2 r q) = v (ix4 (0 : Fin 1) (0 : Fin 1) r q) :=
  shapeCast_apply v h (ix2 r q) (ix4 (0 : Fin 1) (0 : Fin 1) r q) (by
    rw [Shape.rowMajor_val_four, Shape.rowMajor_val_two]
    show ((0 * 1 + 0) * 8 + r.val) * 256 + q.val = r.val * 256 + q.val
    omega)

/-- `[8, 256] → [1, 1, 8, 256]`: entry `(0, 0, r, q)` is the operand's `(r, q)`. -/
theorem block_of_rows (v : S8x256.Idx → α) (h : S8x256.ShapeCasts S1x1x8x256) (r : Fin 8) (q : Fin 256) :
    shapeCast S1x1x8x256 v h (ix4 (0 : Fin 1) (0 : Fin 1) r q) = v (ix2 r q) :=
  shapeCast_apply v h (ix4 (0 : Fin 1) (0 : Fin 1) r q) (ix2 r q) (by
    rw [Shape.rowMajor_val_four, Shape.rowMajor_val_two]
    show r.val * 256 + q.val = ((0 * 1 + 0) * 8 + r.val) * 256 + q.val
    omega)

/-- `[8, 256] → [8, 256, 1]`: entry `(r, q, 0)` is the operand's `(r, q)`. -/
theorem column_of_rows (v : S8x256.Idx → α) (h : S8x256.ShapeCasts S8x256x1) (r : Fin 8) (q : Fin 256) :
    shapeCast S8x256x1 v h (ix3 r q (0 : Fin 1)) = v (ix2 r q) :=
  shapeCast_apply v h (ix3 r q (0 : Fin 1)) (ix2 r q) (by
    rw [Shape.rowMajor_val_three, Shape.rowMajor_val_two]
    show r.val * 256 + q.val = (r.val * 256 + q.val) * 1 + 0
    omega)

/-- `[1, 1, 512] → [512]`: entry `n` is the operand's `(0, 0, n)`. -/
theorem vec_of_row (v : S1x1x512.Idx → α) (h : S1x1x512.ShapeCasts S512) (n : Fin 512) :
    shapeCast S512 v h (ix1 n) = v (ix3 (0 : Fin 1) (0 : Fin 1) n) :=
  shapeCast_apply v h (ix1 n) (ix3 (0 : Fin 1) (0 : Fin 1) n) (by
    rw [Shape.rowMajor_val_three, Shape.rowMajor_val_one]
    show (0 * 1 + 0) * 512 + n.val = n.val
    omega)

/-- `[512] → [1, 1, 512]`: entry `(0, 0, n)` is the operand's `n`. -/
theorem row_of_vec (v : S512.Idx → α) (h : S512.ShapeCasts S1x1x512) (n : Fin 512) :
    shapeCast S1x1x512 v h (ix3 (0 : Fin 1) (0 : Fin 1) n) = v (ix1 n) :=
  shapeCast_apply v h (ix3 (0 : Fin 1) (0 : Fin 1) n) (ix1 n) (by
    rw [Shape.rowMajor_val_three, Shape.rowMajor_val_one]
    show n.val = (0 * 1 + 0) * 512 + n.val
    omega)

/-- `[8, 256, 1] → [8, 256, 512]`: entry `(r, q, n)` is the operand's `(r, q, 0)`. -/
theorem spread_column (v : S8x256x1.Idx → α) (h : S8x256x1.Broadcasts S8x256x512) (r : Fin 8) (q : Fin 256) (n : Fin 512) :
    broadcastTo S8x256x512 v h (ix3 r q n) = v (ix3 r q (0 : Fin 1)) :=
  broadcastTo_apply v h (ix3 r q n) (ix3 r q (0 : Fin 1)) (fun a => match a with
    | ⟨0, _⟩ => by show r.val = if (8 : Nat) = 1 then 0 else r.val; rw [if_neg (by decide)]
    | ⟨1, _⟩ => by show q.val = if (256 : Nat) = 1 then 0 else q.val; rw [if_neg (by decide)]
    | ⟨2, _⟩ => by show 0 = if (1 : Nat) = 1 then 0 else n.val; rw [if_pos rfl])

/-- `[1, 1, 512] → [8, 256, 512]`: entry `(r, q, n)` is the operand's `(0, 0, n)`. -/
theorem spread_row (v : S1x1x512.Idx → α) (h : S1x1x512.Broadcasts S8x256x512) (r : Fin 8) (q : Fin 256) (n : Fin 512) :
    broadcastTo S8x256x512 v h (ix3 r q n) = v (ix3 (0 : Fin 1) (0 : Fin 1) n) :=
  broadcastTo_apply v h (ix3 r q n) (ix3 (0 : Fin 1) (0 : Fin 1) n) (fun a => match a with
    | ⟨0, _⟩ => by show 0 = if (1 : Nat) = 1 then 0 else r.val; rw [if_pos rfl]
    | ⟨1, _⟩ => by show 0 = if (1 : Nat) = 1 then 0 else q.val; rw [if_pos rfl]
    | ⟨2, _⟩ => by show n.val = if (512 : Nat) = 1 then 0 else n.val; rw [if_neg (by decide)])

/-- The sum over the last axis of an `[8, 256, 512]` vector, at `(r, q)`: the sum over `n` of its `(r, q, n)`. -/
theorem sum_last_axis (src : FVec Ideal S8x256x512 .f32) (h : S8x256x512.Reduces [2] S8x256) (hφ : FKind.Formats .f32)
    (hacc : (0x00000000#32 : BitVec 32) = FKind.add.neutral .f32 hφ) (r : Fin 8) (q : Fin 256) :
    multiReduction .add [2] S8x256 src 0x00000000#32 h hφ hacc (ix2 r q) = ∑ n : Fin 512, src (ix3 r q n) := by
  refine (Ideal.multiReduction_add_single src 0x00000000#32 h hφ hacc (ix2 r q)).trans ?_
  refine Finset.sum_congr rfl fun n _ => ?_
  exact congrArg src (funext fun a => Fin.ext (by match a with | ⟨0, _⟩ => rfl | ⟨1, _⟩ => rfl | ⟨2, _⟩ => rfl))

/-! ## The payloads at an index -/

/-- The table's strength row as a vector. -/
theorem strength_at (v8 : FVec Ideal S1x1x512 .f32) (n : Fin 512) :
    k0_pay4 (F := Ideal) v8 (ix1 n) = v8 (ix3 (0 : Fin 1) (0 : Fin 1) n) := by
  unfold k0_pay4
  exact vec_of_row v8 _ n

/-- The offset along the first coordinate: the point's minus the vortex's. -/
theorem offset_y_at (v0 : FVec Ideal S1x1x8x256 .f32) (v4 : FVec Ideal S1x1x512 .f32) (r : Fin 8) (q : Fin 256) (n : Fin 512) :
    k0_pay5 (F := Ideal) v0 v4 (ix3 r q n) = v0 (ix4 (0 : Fin 1) (0 : Fin 1) r q) - v4 (ix3 (0 : Fin 1) (0 : Fin 1) n) := by
  unfold k0_pay5
  show broadcastTo S8x256x512 (shapeCast S8x256x1 (shapeCast S8x256 v0 _) _) _ (ix3 r q n)
      - broadcastTo S8x256x512 (shapeCast S1x1x512 (shapeCast S512 v4 _) _) _ (ix3 r q n) = _
  rw [spread_column, column_of_rows, rows_of_block, spread_row, row_of_vec, vec_of_row]

/-- The offset along the second coordinate. -/
theorem offset_x_at (v2 : FVec Ideal S1x1x8x256 .f32) (v6 : FVec Ideal S1x1x512 .f32) (r : Fin 8) (q : Fin 256) (n : Fin 512) :
    k0_pay6 (F := Ideal) v2 v6 (ix3 r q n) = v2 (ix4 (0 : Fin 1) (0 : Fin 1) r q) - v6 (ix3 (0 : Fin 1) (0 : Fin 1) n) := by
  unfold k0_pay6
  show broadcastTo S8x256x512 (shapeCast S8x256x1 (shapeCast S8x256 v2 _) _) _ (ix3 r q n)
      - broadcastTo S8x256x512 (shapeCast S1x1x512 (shapeCast S512 v6 _) _) _ (ix3 r q n) = _
  rw [spread_column, column_of_rows, rows_of_block, spread_row, row_of_vec, vec_of_row]

/-- The falloff of one (point, vortex) pair: `exp ((0 - s) · (1 / sig²)) · rsqrt s` at the pair's squared distance. -/
theorem falloff_at (v0 v2 : FVec Ideal S1x1x8x256 .f32) (v4 v6 v10 : FVec Ideal S1x1x512 .f32) (r : Fin 8) (q : Fin 256) (n : Fin 512) :
    k0_pay7 (F := Ideal) v0 v2 v4 v6 v10 (ix3 r q n)
      = Ideal.exp ((0 - (k0_pay5 (F := Ideal) v0 v4 (ix3 r q n) * k0_pay5 (F := Ideal) v0 v4 (ix3 r q n)
            + k0_pay6 (F := Ideal) v2 v6 (ix3 r q n) * k0_pay6 (F := Ideal) v2 v6 (ix3 r q n)))
          * Ideal.div 1 (v10 (ix3 (0 : Fin 1) (0 : Fin 1) n) * v10 (ix3 (0 : Fin 1) (0 : Fin 1) n)))
        * Ideal.rsqrt (k0_pay5 (F := Ideal) v0 v4 (ix3 r q n) * k0_pay5 (F := Ideal) v0 v4 (ix3 r q n)
            + k0_pay6 (F := Ideal) v2 v6 (ix3 r q n) * k0_pay6 (F := Ideal) v2 v6 (ix3 r q n)) := by
  unfold k0_pay7
  show Ideal.exp ((Ideal.ofBits .f32 0x00000000#32 - (_ * _ + _ * _))
        * broadcastTo S8x256x512 (shapeCast S1x1x512 (divf (broadcast S512 (Scalar.ofBits (F := Ideal) .f32 0x3F800000#32))
            (mulf (shapeCast S512 v10 _) (shapeCast S512 v10 _))) _) _ (ix3 r q n))
      * Ideal.rsqrt (_ * _ + _ * _) = _
  rw [spread_row, row_of_vec]
  show Ideal.exp ((Ideal.ofBits .f32 0x00000000#32 - (_ * _ + _ * _))
        * Ideal.div (Ideal.ofBits .f32 0x3F800000#32) (shapeCast S512 v10 _ (ix1 n) * shapeCast S512 v10 _ (ix1 n)))
      * Ideal.rsqrt (_ * _ + _ * _) = _
  rw [vec_of_row, Ideal.ofBits_zero_f32, Ideal.ofBits_one_f32]

/-- Strength times falloff. -/
theorem weight_at (v9 : FVec Ideal S512 .f32) (v35 : FVec Ideal S8x256x512 .f32) (r : Fin 8) (q : Fin 256) (n : Fin 512) :
    k0_pay1 (F := Ideal) v9 v35 (ix3 r q n) = v9 (ix1 n) * v35 (ix3 r q n) := by
  unfold k0_pay1
  show broadcastTo S8x256x512 (shapeCast S1x1x512 v9 _) _ (ix3 r q n) * v35 (ix3 r q n) = _
  rw [spread_row, row_of_vec]

/-- Channel 0 of the stored block: the sum over the vortices of weight times the second offset. -/
theorem channel0_at (v9 : FVec Ideal S512 .f32) (v21 v35 : FVec Ideal S8x256x512 .f32) (r : Fin 8) (q : Fin 256) :
    k0_pay2 (F := Ideal) v9 v21 v35 (ix4 (0 : Fin 1) (0 : Fin 1) r q)
      = ∑ n : Fin 512, (v9 (ix1 n) * v35 (ix3 r q n)) * v21 (ix3 r q n) := by
  unfold k0_pay2
  refine (block_of_rows _ _ r q).trans ?_
  refine (sum_last_axis _ _ _ _ r q).trans ?_
  refine Finset.sum_congr rfl fun n _ => ?_
  show k0_pay1 (F := Ideal) v9 v35 (ix3 r q n) * v21 (ix3 r q n) = _
  rw [weight_at]

/-- Channel 1 of the stored block: the sum over the vortices of weight times `0 -` the first offset. -/
theorem channel1_at (v9 : FVec Ideal S512 .f32) (v16 v35 : FVec Ideal S8x256x512 .f32) (r : Fin 8) (q : Fin 256) :
    k0_pay3 (F := Ideal) v9 v16 v35 (ix4 (0 : Fin 1) (0 : Fin 1) r q)
      = ∑ n : Fin 512, (v9 (ix1 n) * v35 (ix3 r q n)) * (0 - v16 (ix3 r q n)) := by
  unfold k0_pay3
  refine (block_of_rows _ _ r q).trans ?_
  refine (sum_last_axis _ _ _ _ r q).trans ?_
  refine Finset.sum_congr rfl fun n _ => ?_
  show k0_pay1 (F := Ideal) v9 v35 (ix3 r q n) * (Ideal.ofBits .f32 0x00000000#32 - v16 (ix3 r q n)) = _
  rw [weight_at, Ideal.ofBits_zero_f32]

end Cert.VortexField

end
-- ==== Proof.StoredBlock.lean ====
/-
  The block the body stores is `blkK` of its two input blocks: the loads read the input blocks' rows, the two stores
  fill the two channels of the output block, and each channel's payload at `(r, q)` is the sum over the vortices the
  specification names.
-/
import proofs.«145549_j83434034692733_1_alg».proof.Proof.KernelBlock

noncomputable section

open scoped BigOperators

namespace Cert.VortexField

open Cert.KernelIdeal Cert.KernelIdeal.Gen Idealize.ShloMosaic Idealize.ShloMosaic.ValueIdx

/-! ## Where the body's rectangles sit in their blocks -/

theorem at_r0_0 (r : Fin 8) (q : Fin 256) :
    r0_0.emb (ix4 (0 : Fin 1) (0 : Fin 1) r q) = ix4 (0 : Fin 1) (0 : Fin 2) r q :=
  funext fun a => Fin.ext (by
    match a with
    | ⟨0, _⟩ => show 0 + 1 * 0 = 0; omega
    | ⟨1, _⟩ => show 0 + 1 * 0 = 0; omega
    | ⟨2, _⟩ => show 0 + 1 * r.val = r.val; omega
    | ⟨3, _⟩ => show 0 + 1 * q.val = q.val; omega)

theorem at_r0_1 (r : Fin 8) (q : Fin 256) :
    r0_1.emb (ix4 (0 : Fin 1) (0 : Fin 1) r q) = ix4 (0 : Fin 1) (1 : Fin 2) r q :=
  funext fun a => Fin.ext (by
    match a with
    | ⟨0, _⟩ => show 0 + 1 * 0 = 0; omega
    | ⟨1, _⟩ => show 1 + 1 * 0 = 1; omega
    | ⟨2, _⟩ => show 0 + 1 * r.val = r.val; omega
    | ⟨3, _⟩ => show 0 + 1 * q.val = q.val; omega)

theorem at_r0_2 (n : Fin 512) : r0_2.emb (ix3 (0 : Fin 1) (0 : Fin 1) n) = ix3 (0 : Fin 1) (0 : Fin 6) n :=
  funext fun a => Fin.ext (by
    match a with
    | ⟨0, _⟩ => show 0 + 1 * 0 = 0; omega
    | ⟨1, _⟩ => show 0 + 1 * 0 = 0; omega
    | ⟨2, _⟩ => show 0 + 1 * n.val = n.val; omega)

theorem at_r0_3 (n : Fin 512) : r0_3.emb (ix3 (0 : Fin 1) (0 : Fin 1) n) = ix3 (0 : Fin 1) (1 : Fin 6) n :=
  funext fun a => Fin.ext (by
    match a with
    | ⟨0, _⟩ => show 0 + 1 * 0 = 0; omega
    | ⟨1, _⟩ => show 1 + 1 * 0 = 1; omega
    | ⟨2, _⟩ => show 0 + 1 * n.val = n.val; omega)

theorem at_r0_4 (n : Fin 512) : r0_4.emb (ix3 (0 : Fin 1) (0 : Fin 1) n) = ix3 (0 : Fin 1) (2 : Fin 6) n :=
  funext fun a => Fin.ext (by
    match a with
    | ⟨0, _⟩ => show 0 + 1 * 0 = 0; omega
    | ⟨1, _⟩ => show 2 + 1 * 0 = 2; omega
    | ⟨2, _⟩ => show 0 + 1 * n.val = n.val; omega)

theorem at_r0_5 (n : Fin 512) : r0_5.emb (ix3 (0 : Fin 1) (0 : Fin 1) n) = ix3 (0 : Fin 1) (3 : Fin 6) n :=
  funext fun a => Fin.ext (by
    match a with
    | ⟨0, _⟩ => show 0 + 1 * 0 = 0; omega
    | ⟨1, _⟩ => show 3 + 1 * 0 = 3; omega
    | ⟨2, _⟩ => show 0 + 1 * n.val = n.val; omega)

/-- An index of a `[1, 1, 8, 256]` piece is `(0, 0, r, q)`. -/
theorem piece_index (x : S1x1x8x256.Idx) : ∃ (r : Fin 8) (q : Fin 256), x = ix4 (0 : Fin 1) (0 : Fin 1) r q := by
  have h0 : x 0 = (0 : Fin 1) := Fin.ext (by have h : (x 0).val < 1 := (x 0).isLt; show (x 0).val = 0; omega)
  have h1 : x 1 = (0 : Fin 1) := Fin.ext (by have h : (x 1).val < 1 := (x 1).isLt; show (x 1).val = 0; omega)
  refine ⟨x 2, x 3, (eq_ix4 x).trans ?_⟩
  rw [h0, h1]
  rfl

variable (x0 : FVec Ideal S1x2x8x256 .f32) (x1 : FVec Ideal S1x6x512 .f32)

/-! ## What the body's loads read of the two input blocks -/

theorem ld_y (r : Fin 8) (q : Fin 256) : View.ld (Val := Elt Ideal) (e' := EltTy.f32) x0 r0_0 (ix4 (0 : Fin 1) (0 : Fin 1) r q) = x0 (ix4 (0 : Fin 1) (0 : Fin 2) r q) :=
  congrArg x0 (at_r0_0 r q)
theorem ld_x (r : Fin 8) (q : Fin 256) : View.ld (Val := Elt Ideal) (e' := EltTy.f32) x0 r0_1 (ix4 (0 : Fin 1) (0 : Fin 1) r q) = x0 (ix4 (0 : Fin 1) (1 : Fin 2) r q) :=
  congrArg x0 (at_r0_1 r q)
theorem ld_vy (n : Fin 512) : View.ld (Val := Elt Ideal) (e' := EltTy.f32) x1 r0_2 (ix3 (0 : Fin 1) (0 : Fin 1) n) = x1 (ix3 (0 : Fin 1) (0 : Fin 6) n) :=
  congrArg x1 (at_r0_2 n)
theorem ld_vx (n : Fin 512) : View.ld (Val := Elt Ideal) (e' := EltTy.f32) x1 r0_3 (ix3 (0 : Fin 1) (0 : Fin 1) n) = x1 (ix3 (0 : Fin 1) (1 : Fin 6) n) :=
  congrArg x1 (at_r0_3 n)
theorem ld_tau (n : Fin 512) : View.ld (Val := Elt Ideal) (e' := EltTy.f32) x1 r0_4 (ix3 (0 : Fin 1) (0 : Fin 1) n) = x1 (ix3 (0 : Fin 1) (2 : Fin 6) n) :=
  congrArg x1 (at_r0_4 n)
theorem ld_sig (n : Fin 512) : View.ld (Val := Elt Ideal) (e' := EltTy.f32) x1 r0_5 (ix3 (0 : Fin 1) (0 : Fin 1) n) = x1 (ix3 (0 : Fin 1) (3 : Fin 6) n) :=
  congrArg x1 (at_r0_5 n)

/-! ## The two stored pieces -/

/-- The first store's payload is channel 0 of `blkK`. -/
theorem channel0_piece (x : S1x1x8x256.Idx) :
    k0_pay2 (F := Ideal) (k0_pay4 (View.ld x1 r0_4)) (k0_pay6 (View.ld x0 r0_1) (View.ld x1 r0_3))
        (k0_pay7 (View.ld x0 r0_0) (View.ld x0 r0_1) (View.ld x1 r0_2) (View.ld x1 r0_3) (View.ld x1 r0_5)) x
      = blkK x0 x1 (r0_0.emb x) := by
  obtain ⟨r, q, rfl⟩ := piece_index x
  refine (channel0_at _ _ _ r q).trans ?_
  rw [at_r0_0]
  show _ = ∑ n : Fin 512, contribK (x0 (ix4 (0 : Fin 1) (0 : Fin 2) r q)) (x0 (ix4 (0 : Fin 1) (1 : Fin 2) r q))
    (x1 (ix3 (0 : Fin 1) (0 : Fin 6) n)) (x1 (ix3 (0 : Fin 1) (1 : Fin 6) n)) (x1 (ix3 (0 : Fin 1) (2 : Fin 6) n)) (x1 (ix3 (0 : Fin 1) (3 : Fin 6) n)) 0
  refine Finset.sum_congr rfl fun n _ => ?_
  rw [strength_at, falloff_at, offset_y_at, offset_x_at, ld_y, ld_x, ld_vy, ld_vx, ld_tau, ld_sig]
  unfold contribK wK
  rw [if_pos rfl]

/-- The second store's payload is channel 1 of `blkK`. -/
theorem channel1_piece (x : S1x1x8x256.Idx) :
    k0_pay3 (F := Ideal) (k0_pay4 (View.ld x1 r0_4)) (k0_pay5 (View.ld x0 r0_0) (View.ld x1 r0_2))
        (k0_pay7 (View.ld x0 r0_0) (View.ld x0 r0_1) (View.ld x1 r0_2) (View.ld x1 r0_3) (View.ld x1 r0_5)) x
      = blkK x0 x1 (r0_1.emb x) := by
  obtain ⟨r, q, rfl⟩ := piece_index x
  refine (channel1_at _ _ _ r q).trans ?_
  rw [at_r0_1]
  show _ = ∑ n : Fin 512, contribK (x0 (ix4 (0 : Fin 1) (0 : Fin 2) r q)) (x0 (ix4 (0 : Fin 1) (1 : Fin 2) r q))
    (x1 (ix3 (0 : Fin 1) (0 : Fin 6) n)) (x1 (ix3 (0 : Fin 1) (1 : Fin 6) n)) (x1 (ix3 (0 : Fin 1) (2 : Fin 6) n)) (x1 (ix3 (0 : Fin 1) (3 : Fin 6) n)) 1
  refine Finset.sum_congr rfl fun n _ => ?_
  rw [strength_at, falloff_at, offset_y_at, offset_x_at, ld_y, ld_x, ld_vy, ld_vx, ld_tau, ld_sig]
  unfold contribK wK
  rw [if_neg (by decide)]

/-- THE BLOCK the body leaves: the two stores' payloads agree with `blkK` on their rectangles, which tile the block. -/
theorem out_block_eq : out0_2 (F := Ideal) x0 x1 = blkK x0 x1 := by
  funext y
  unfold out0_2
  refine View.canon_apply_of_pieces (Val := Elt Ideal) (e := EltTy.f32) (blkK x0 x1) _ ?_ y (cover0_2 _ _ y)
  intro p hp x
  rcases List.mem_cons.mp hp with rfl | hp
  · exact channel1_piece x0 x1 x
  · rcases List.mem_cons.mp hp with rfl | hp
    · exact channel0_piece x0 x1 x
    · exact absurd hp List.not_mem_nil

end Cert.VortexField

end
-- ==== Proof.KernelArray.lean ====
/-
  From blocks to the array: after the region the kernel's result array, channel-major `[2, 2, 256, 256]`, holds
  `velT` of the channel-major features and points the region found.

  Grid point `t = (b, g)` stages block `(b, 0, g, 0)` of the points (both channels of rows `8g … 8g + 7` of batch `b`)
  and block `(b, 0, 0)` of the features (batch `b`'s whole table), and writes back block `(b, 0, g, 0)` of the result.
  A block's element sits in its array, on each axis, at block index × block size + its own coordinate; so what the
  point writes back is the restriction of ONE whole-array function to its block, and the 64 blocks tile the array.
-/
import proofs.«145549_j83434034692733_1_alg».proof.Proof.StoredBlock

set_option maxRecDepth 16384

noncomputable section

open scoped BigOperators

namespace Cert.VortexField

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The channel-major points and features as the region finds them. -/
abbrev ptsT (c : Dev nD) : FVec Ideal S2x2x256x256 .f32 := V m c main_v1
abbrev featT (c : Dev nD) : FVec Ideal S2x6x512 .f32 := V m c main_v0
/-- The two input blocks at a grid point. -/
abbrev ptsBlk (c : Dev nD) (t : Fin cfg0.N) : FVec Ideal S1x2x8x256 .f32 := iblk m c 0 t
abbrev featBlk (c : Dev nD) (t : Fin cfg0.N) : FVec Ideal S1x6x512 .f32 := iblk m c 1 t

/-- The printed index maps, decided over the 64 grid points: the points' block moves with the result's, the features'
    block follows the batch only, and the block indices stay in their ranges. -/
theorem index_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 3) = win0_2.index t (0 : Fin 4) ∧ win0_1.index t (1 : Fin 3) = 0 ∧ win0_1.index t (2 : Fin 3) = 0
    ∧ win0_2.index t (1 : Fin 4) = 0 ∧ win0_2.index t (3 : Fin 4) = 0
    ∧ win0_2.index t (0 : Fin 4) ≤ 1 ∧ win0_2.index t (2 : Fin 4) ≤ 31 :=
  (by decide +kernel : ∀ t : Fin grid0.N, _)

/-- Every block of the result is some grid point's. -/
theorem index_onto : ∀ (b : Fin 2) (g : Fin 32), ∃ t : Fin cfg0.N, win0_2.index t = ![b.val, 0, g.val, 0] :=
  (by decide +kernel : ∀ (b : Fin 2) (g : Fin 32), ∃ t : Fin grid0.N, win0_2.index t = ![b.val, 0, g.val, 0])

/-- The points' block at `t`, at `(0, k, r, q)`, is the channel-major points where the result's block puts `(0, ·, r, q)`. -/
theorem ptsBlk_at (c : Dev nD) (t : Fin cfg0.N) (k : Fin 2) (r : Fin 8) (q : Fin 256) (i : S2x2x256x256.Idx)
    (h0 : (i 0).val = win0_2.index t (0 : Fin 4)) (h2 : (i 2).val = win0_2.index t (2 : Fin 4) * 8 + r.val) (h3 : (i 3).val = q.val) :
    ptsBlk m c t (ix4 (0 : Fin 1) k r q) = ptsT m c (ix4 (i 0) k (i 2) (i 3)) := by
  obtain ⟨e00, e01, e02, e03, -, -, -, -, -, -, -⟩ := index_facts t
  show V m c main_v1 (((cfg0.win 0).blk t).view.emb (ix4 (0 : Fin 1) k r q)) = V m c main_v1 (ix4 (i 0) k (i 2) (i 3))
  refine congrArg (V m c main_v1) (funext fun a => Fin.ext ?_)
  match a with
  | ⟨0, _⟩ => show win0_0.index t (0 : Fin 4) * 1 + 1 * 0 = (i 0).val; omega
  | ⟨1, _⟩ => show win0_0.index t (1 : Fin 4) * 2 + 1 * k.val = k.val; omega
  | ⟨2, _⟩ => show win0_0.index t (2 : Fin 4) * 8 + 1 * r.val = (i 2).val; omega
  | ⟨3, _⟩ => show win0_0.index t (3 : Fin 4) * 256 + 1 * q.val = (i 3).val; omega

/-- The features' block at `t`, at `(0, j, n)`, is the channel-major features of the result block's batch. -/
theorem featBlk_at (c : Dev nD) (t : Fin cfg0.N) (j : Fin 6) (n : Fin 512) (b : Fin 2)
    (h0 : b.val = win0_2.index t (0 : Fin 4)) :
    featBlk m c t (ix3 (0 : Fin 1) j n) = featT m c (ix3 b j n) := by
  obtain ⟨-, -, -, -, e10, e11, e12, -, -, -, -⟩ := index_facts t
  show V m c main_v0 (((cfg0.win 1).blk t).view.emb (ix3 (0 : Fin 1) j n)) = V m c main_v0 (ix3 b j n)
  refine congrArg (V m c main_v0) (funext fun a => Fin.ext ?_)
  match a with
  | ⟨0, _⟩ => show win0_1.index t (0 : Fin 3) * 1 + 1 * 0 = b.val; omega
  | ⟨1, _⟩ => show win0_1.index t (1 : Fin 3) * 6 + 1 * j.val = j.val; omega
  | ⟨2, _⟩ => show win0_1.index t (2 : Fin 3) * 512 + 1 * n.val = n.val; omega

/-- WHAT POINT `t` WRITES BACK is block `t` of `velT` of the channel-major arrays. -/
theorem flushed_eq (c : Dev nD) (t : Fin cfg0.N) :
    (dats m 0 c).flushed 2 t = ((cfg0.win 2).blk t).view.read (Elt Ideal) (velT (featT m c) (ptsT m c)) := by
  show (cfg0.win 2).cut (grid0.coords t) ((dats m 0 c).after 2 t) = _
  rw [after0_2, out_block_eq (ptsBlk m c t) (featBlk m c t)]
  obtain ⟨-, -, -, -, -, -, -, e21, e23, -, -⟩ := index_facts t
  funext y
  show blkK (ptsBlk m c t) (featBlk m c t) y = velT (featT m c) (ptsT m c) (((cfg0.win 2).blk t).view.emb y)
  have hy0 : (y 0).val < 1 := (y 0).isLt
  have hy1 : (y 1).val < 2 := (y 1).isLt
  have a0 : ((((cfg0.win 2).blk t).view.emb y) 0).val = win0_2.index t (0 : Fin 4) := by
    show win0_2.index t (0 : Fin 4) * 1 + 1 * (y 0).val = _; omega
  have a1 : ((((cfg0.win 2).blk t).view.emb y) 1).val = (y 1).val := by
    show win0_2.index t (1 : Fin 4) * 2 + 1 * (y 1).val = _; omega
  have a2 : ((((cfg0.win 2).blk t).view.emb y) 2).val = win0_2.index t (2 : Fin 4) * 8 + (y 2).val := by
    show win0_2.index t (2 : Fin 4) * 8 + 1 * (y 2).val = _; omega
  have a3 : ((((cfg0.win 2).blk t).view.emb y) 3).val = (y 3).val := by
    show win0_2.index t (3 : Fin 4) * 256 + 1 * (y 3).val = _; omega
  unfold blkK velT
  rw [a1]
  refine Finset.sum_congr rfl fun n _ => ?_
  rw [ptsBlk_at m c t (0 : Fin 2) (y 2) (y 3) _ a0 a2 a3, ptsBlk_at m c t (1 : Fin 2) (y 2) (y 3) _ a0 a2 a3,
    featBlk_at m c t (0 : Fin 6) n _ a0, featBlk_at m c t (1 : Fin 6) n _ a0, featBlk_at m c t (2 : Fin 6) n _ a0,
    featBlk_at m c t (3 : Fin 6) n _ a0]

/-- An index of the array is in point `t`'s block iff each coordinate is in the block's range on its axis. -/
theorem mem_blk (t : Fin cfg0.N) (i : S2x2x256x256.Idx) :
    i ∈ ((cfg0.win 2).blk t).view.set ↔ ∀ a : Fin 4, win0_2.index t a * S1x2x8x256.size a ≤ (i a).val ∧ (i a).val < win0_2.index t a * S1x2x8x256.size a + S1x2x8x256.size a := by
  show i ∈ ((View.whole main_v2).slice (win0_2.rect t)).set ↔ _
  rw [View.set_slice_whole, Rect.mem_set_unit]
  exact Iff.rfl

/-- The 64 blocks tile the array: every index is in the block of the point of its batch and its row's group of eight. -/
theorem covered (i : S2x2x256x256.Idx) :
    ∃ t : Fin cfg0.N, (cfg0.win 2).flush t = true ∧ i ∈ ((cfg0.win 2).blk t).view.set := by
  have hi0 : (i 0).val < 2 := (i 0).isLt
  have hi1 : (i 1).val < 2 := (i 1).isLt
  have hi2 : (i 2).val < 256 := (i 2).isLt
  have hi3 : (i 3).val < 256 := (i 3).isLt
  obtain ⟨t, ht⟩ := index_onto ⟨(i 0).val, hi0⟩ ⟨(i 2).val / 8, by omega⟩
  have q0 : win0_2.index t (0 : Fin 4) = (i 0).val := congrFun ht 0
  have q1 : win0_2.index t (1 : Fin 4) = 0 := congrFun ht 1
  have q2 : win0_2.index t (2 : Fin 4) = (i 2).val / 8 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 8 ≤ (i 2).val ∧ (i 2).val < win0_2.index t (2 : Fin 4) * 8 + 8; omega
  | ⟨3, _⟩ => show win0_2.index t (3 : Fin 4) * 256 ≤ (i 3).val ∧ (i 3).val < win0_2.index t (3 : Fin 4) * 256 + 256; omega

/-- THE ARRAY after the run: `velT` of the channel-major arrays the region found. -/
theorem final_array (c : Dev nD) : (dats m 0 c).arrAt 2 cfg0.N = velT (featT m c) (ptsT m c) :=
  (dats m 0 c).arrAt_eq_of_cover 2 (velT (featT m c) (ptsT m c)) (fun t _ => flushed_eq m c t) covered

end Cert.VortexField

end
-- ==== Proof.ChannelMajor.lean ====
/-
  The field over the channel-major copies is the field over the arrays.

  If `ft[b, j, n] = vf[b, n, j]` and `pt[b, k, h, w] = pts[b, h, w, k]` (the two arrays with their last axis moved up),
  then `velT ft pt` at `(b, c, h, w)` is `velK vf pts` at `(b, h, w, c)`: the same sum over the vortices, term by term.
-/
import proofs.«145549_j83434034692733_1_alg».proof.Proof.VelocityField

noncomputable section

open scoped BigOperators

namespace Cert.VortexField

open Idealize.ShloMosaic Idealize.ShloMosaic.ValueIdx

theorem velT_eq_velK (vf : SFeat.Idx → EReal) (pts : SPts.Idx → EReal) (ft : SFeatT.Idx → EReal) (pt : SPtsT.Idx → EReal)
    (hft : ∀ (b : Fin 2) (j : Fin 6) (n : Fin 512), ft (ix3 b j n) = vf (ix3 b n j))
    (hpt : ∀ (b : Fin 2) (k : Fin 2) (h w : Fin 256), pt (ix4 b k h w) = pts (ix4 b h w k))
    (b : Fin 2) (c : Fin 2) (h w : Fin 256) :
    velT ft pt (ix4 b c h w) = velK vf pts (ix4 b h w c) := by
  unfold velT velK
  refine Finset.sum_congr rfl fun n _ => ?_
  show contribK (pt (ix4 b (0 : Fin 2) h w)) (pt (ix4 b (1 : Fin 2) h w)) (ft (ix3 b (0 : Fin 6) n)) (ft (ix3 b (1 : Fin 6) n))
      (ft (ix3 b (2 : Fin 6) n)) (ft (ix3 b (3 : Fin 6) n)) c.val
    = contribK (pts (ix4 b h w (0 : Fin 2))) (pts (ix4 b h w (1 : Fin 2))) (vf (ix3 b n (0 : Fin 6))) (vf (ix3 b n (1 : Fin 6)))
      (vf (ix3 b n (2 : Fin 6))) (vf (ix3 b n (3 : Fin 6))) c.val
  rw [hpt, hpt, hft, hft, hft, hft]

end Cert.VortexField

end
-- ==== Proof.KernelResult.lean ====
/-
  The kernel's run, read: @main moves the channels of both arguments up (two host transposes), runs the region on the
  channel-major copies, and moves the result's channel axis back down (one host transpose). So the result array holds, at
  `(b, h, w, c)`, the channel-major field at `(b, c, h, w)`, which is `velK` of the two arguments at `(b, h, w, c)`.
-/
import proofs.«145549_j83434034692733_1_alg».proof.Proof.KernelArray
import proofs.«145549_j83434034692733_1_alg».proof.Proof.ChannelMajor
import Idealize.ShloMosaic.Lib.StableHlo.Run

set_option maxRecDepth 16384

noncomputable section

open scoped BigOperators

namespace Cert.VortexField

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The two arguments as launched, by their literal types. -/
abbrev featArg (c : Dev nD) : FVec Ideal S2x512x6 .f32 := m ((c : Thread nD τ).loc main_arg0)
abbrev ptsArg (c : Dev nD) : FVec Ideal S2x256x256x2 .f32 := m ((c : Thread nD τ).loc main_arg1)

/-- The region finds the features with the vortex axis last … -/
theorem featT_eq (c : Dev nD) :
    featT m c = transpose S2x6x512 [0, 2, 1] (featArg m c) Facts₀.transposes_S2x512x6_S2x6x512_0_2_1 := by
  show StableHlo.after hostOps0 (fun b => m (c, b)) (Proc.devRef .tc main_v0) = _
  after_results

/-- … and the points with the channel axis second. -/
theorem ptsT_eq (c : Dev nD) :
    ptsT m c = transpose S2x2x256x256 [0, 3, 1, 2] (ptsArg m c) Facts₀.transposes_S2x256x256x2_S2x2x256x256_0_3_1_2 := by
  show StableHlo.after hostOps0 (fun b => m (c, b)) (Proc.devRef .tc main_v1) = _
  after_results

theorem featT_at (c : Dev nD) (b : Fin 2) (j : Fin 6) (n : Fin 512) :
    featT m c (ix3 b j n) = featArg m c (ix3 b n j) := by
  rw [featT_eq]
  exact transpose_apply _ _ _ (ix3 b j n) (ix3 b n j) (fun a => match a with
    | ⟨0, _⟩ => rfl | ⟨1, _⟩ => rfl | ⟨2, _⟩ => rfl)

theorem ptsT_at (c : Dev nD) (b : Fin 2) (k : Fin 2) (h w : Fin 256) :
    ptsT m c (ix4 b k h w) = ptsArg m c (ix4 b h w k) := by
  rw [ptsT_eq]
  exact transpose_apply _ _ _ (ix4 b k h w) (ix4 b h w k) (fun a => match a with
    | ⟨0, _⟩ => rfl | ⟨1, _⟩ => rfl | ⟨2, _⟩ => rfl | ⟨3, _⟩ => rfl)

/-- The line after the region: the result array is the region's array with its channel axis moved last. -/
theorem tail_eq (c : Dev nD) :
    Pipeline.afterTail₀ cfgs (dats m) 0 (V0 m) [hostOps1] c main_v3
      = transpose S2x256x256x2 [0, 2, 3, 1] ((dats m 0 c).arrAt 2 cfg0.N) Facts₀.transposes_S2x2x256x256_S2x256x256x2_0_2_3_1 := by
  unfold Pipeline.afterTail₀
  show StableHlo.after hostOps1 _ (Proc.devRef .tc main_v3) = _
  after_results
  rw [Pipeline.withArrays_arr spec0 launch0.win.arr_inj c _ _ 2]

/-- THE RESULT: `velK` of the two arguments. -/
theorem result_eq (c : Dev nD) :
    Pipeline.afterTail₀ cfgs (dats m) 0 (V0 m) [hostOps1] c main_v3 = velK (featArg m c) (ptsArg m c) := by
  rw [tail_eq, final_array]
  funext i
  obtain ⟨b, h, w, k, rfl⟩ : ∃ (b : Fin 2) (h w : Fin 256) (k : Fin 2), i = ix4 b h w k := ⟨i 0, i 1, i 2, i 3, eq_ix4 i⟩
  refine (transpose_apply _ _ _ (ix4 b h w k) (ix4 b k h w) (fun a => match a with
    | ⟨0, _⟩ => rfl | ⟨1, _⟩ => rfl | ⟨2, _⟩ => rfl | ⟨3, _⟩ => rfl)).trans ?_
  exact velT_eq_velK (featArg m c) (ptsArg m c) (featT m c) (ptsT m c) (featT_at m c) (ptsT_at m c) b k h w

/-- The kernel's run with its result named: every weakly fair execution ends with the result array at `velK` of the
    arguments as launched, the arguments unchanged. -/
theorem kernel_run : θ_run defs (onTc (τ := τ) (main (F := Ideal))) ⟨m, fun _ => 0, ρ⟩ (fun r => ∀ c : Dev nD,
      r.2.mem ((c.tc : Thread nD τ).loc main_v3) = velK (featArg m c) (ptsArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.VortexField

end
-- ==== Proof.RefField.lean ====
/-
  The reference's result, read one operation at a time, is the velocity field in the reference's arrangement.

  Per batch `b`, grid position `(h, w)` and vortex `n` the reference forms the two offsets
  `d_k = points[b, h, w, k] - features[b, n, k]` (`k = 0, 1`), their squared distance `s = 0 + (d_0 · d_0 + d_1 · d_1)`,
  the weight `tau · (exp ((-s) / sig²) / sqrt s)` with `tau = features[b, n, 2]` and `sig = features[b, n, 3]`, multiplies it by
  the pair `(d_1, -d_0)` and sums over `n` from `0`. Each stage is read at explicit coordinates; the two joined pairs are read
  at the literal coordinates `0` and `1` of the joined axis; a reshape's row-major index is undone by arithmetic on the bounds.
-/
import proofs.«145549_j83434034692733_1_alg».proof.Proof.RefRead
import proofs.«145549_j83434034692733_1_alg».proof.Proof.VelocityField
import Idealize.ShloMosaic.Lib.ValueIdx
import Idealize.ShloMosaic.Lib.Pipeline.Value
import Idealize.ShloMosaic.PureOps.Ideal.Laws

noncomputable section

open scoped BigOperators

namespace Cert.VortexField

open Idealize.ShloMosaic Idealize.ShloMosaic.ValueIdx

namespace RefField

open Cert.ReferenceIdeal Cert.ReferenceIdeal.Gen Cert.ReferenceIdeal.ReadP

/-! ### Indices: the reading lemmas' composed index functions at explicit coordinates -/

/-- A feature column through its slice and reshape: column 0 … -/
theorem idx_col0 (b : Fin 2) (n : Fin 512) : idx_main_v0 (idx_main_v1 (ix2 b n)) = ix3 b n (0 : Fin 6) := by
  have hb : b.val < 2 := b.isLt
  have hn : n.val < 512 := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl
/-- … column 1 … -/
theorem idx_col1 (b : Fin 2) (n : Fin 512) : idx_main_v2 (idx_main_v3 (ix2 b n)) = ix3 b n (1 : Fin 6) := by
  have hb : b.val < 2 := b.isLt
  have hn : n.val < 512 := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl
/-- … column 2 … -/
theorem idx_col2 (b : Fin 2) (n : Fin 512) : idx_main_v4 (idx_main_v5 (ix2 b n)) = ix3 b n (2 : Fin 6) := by
  have hb : b.val < 2 := b.isLt
  have hn : n.val < 512 := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl
/-- … and column 3. -/
theorem idx_col3 (b : Fin 2) (n : Fin 512) : idx_main_v6 (idx_main_v7 (ix2 b n)) = ix3 b n (3 : Fin 6) := by
  have hb : b.val < 2 := b.isLt
  have hn : n.val < 512 := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl

/-- The unit axis appended to a location column. -/
theorem idx_v12 (b : Fin 2) (n : Fin 512) : idx_main_v12 (ix3 b n (0 : Fin 1)) = ix2 b n := by
  funext a; match a with | ⟨0, _⟩ => rfl | ⟨1, _⟩ => rfl
theorem idx_v13 (b : Fin 2) (n : Fin 512) : idx_main_v13 (ix3 b n (0 : Fin 1)) = ix2 b n := by
  funext a; match a with | ⟨0, _⟩ => rfl | ⟨1, _⟩ => rfl

/-- The locations broadcast over the grid. -/
theorem idx_v18 (b : Fin 2) (h w : Fin 256) (n : Fin 512) (k : Fin 2) :
    idx_main_v16 (idx_main_v18 (ix5 b h w n k)) = ix3 b n k := by
  funext a; match a with | ⟨0, _⟩ => rfl | ⟨1, _⟩ => rfl | ⟨2, _⟩ => rfl
/-- The points broadcast over the vortices. -/
theorem idx_v17 (b : Fin 2) (h w : Fin 256) (n : Fin 512) (k : Fin 2) :
    idx_main_v15 (idx_main_v17 (ix5 b h w n k)) = ix4 b h w k := by
  funext a; match a with | ⟨0, _⟩ => rfl | ⟨1, _⟩ => rfl | ⟨2, _⟩ => rfl | ⟨3, _⟩ => rfl

/-- The inner sum's operand index. -/
theorem idx_v21 (b : Fin 2) (h w : Fin 256) (n : Fin 512) (k : Fin 2) :
    idx_main_v21 (ix4 b h w n) k = ix5 b h w n k := by
  funext a; match a with | ⟨0, _⟩ => rfl | ⟨1, _⟩ => rfl | ⟨2, _⟩ => rfl | ⟨3, _⟩ => rfl | ⟨4, _⟩ => rfl
/-- A unit axis appended to a rank-4 array (three operations share this index function's text). -/
theorem idx_v22 (b : Fin 2) (h w : Fin 256) (n : Fin 512) : idx_main_v22 (ix5 b h w n (0 : Fin 1)) = ix4 b h w n := by
  funext a; match a with | ⟨0, _⟩ => rfl | ⟨1, _⟩ => rfl | ⟨2, _⟩ => rfl | ⟨3, _⟩ => rfl
theorem idx_v39 (b : Fin 2) (h w : Fin 256) (n : Fin 512) : idx_main_v39 (ix5 b h w n (0 : Fin 1)) = ix4 b h w n := by
  funext a; match a with | ⟨0, _⟩ => rfl | ⟨1, _⟩ => rfl | ⟨2, _⟩ => rfl | ⟨3, _⟩ => rfl
theorem idx_v40 (b : Fin 2) (h w : Fin 256) (n : Fin 512) : idx_main_v40 (ix5 b h w n (0 : Fin 1)) = ix4 b h w n := by
  funext a; match a with | ⟨0, _⟩ => rfl | ⟨1, _⟩ => rfl | ⟨2, _⟩ => rfl | ⟨3, _⟩ => rfl

/-- A per-vortex column broadcast over the grid: the width … -/
theorem idx_v27 (b : Fin 2) (h w : Fin 256) (n : Fin 512) :
    idx_main_v23 (idx_main_v27 (ix5 b h w n (0 : Fin 1))) = ix2 b n := by
  funext a; match a with | ⟨0, _⟩ => rfl | ⟨1, _⟩ => rfl
/-- … and the strength. -/
theorem idx_v32 (b : Fin 2) (h w : Fin 256) (n : Fin 512) :
    idx_main_v24 (idx_main_v32 (ix5 b h w n (0 : Fin 1))) = ix2 b n := by
  funext a; match a with | ⟨0, _⟩ => rfl | ⟨1, _⟩ => rfl

/-- Offset 0 through its slice and reshape … -/
theorem idx_v35 (b : Fin 2) (h w : Fin 256) (n : Fin 512) :
    idx_main_v34 (idx_main_v35 (ix4 b h w n)) = ix5 b h w n (0 : Fin 2) := by
  have hb : b.val < 2 := b.isLt
  have hh : h.val < 256 := h.isLt
  have hw : w.val < 256 := w.isLt
  have hn : n.val < 512 := n.isLt
  funext a
  refine Fin.ext ?_
  match a with
  | ⟨0, _⟩ => show (((b.val * 256 + h.val) * 256 + w.val) * 512 + n.val) / 33554432 = b.val; omega
  | ⟨1, _⟩ => show (((b.val * 256 + h.val) * 256 + w.val) * 512 + n.val) / 131072 % 256 = h.val; omega
  | ⟨2, _⟩ => show (((b.val * 256 + h.val) * 256 + w.val) * 512 + n.val) / 512 % 256 = w.val; omega
  | ⟨3, _⟩ => show (((b.val * 256 + h.val) * 256 + w.val) * 512 + n.val) / 1 % 512 = n.val; omega
  | ⟨4, _⟩ => rfl
/-- … and offset 1. -/
theorem idx_v37 (b : Fin 2) (h w : Fin 256) (n : Fin 512) :
    idx_main_v36 (idx_main_v37 (ix4 b h w n)) = ix5 b h w n (1 : Fin 2) := by
  have hb : b.val < 2 := b.isLt
  have hh : h.val < 256 := h.isLt
  have hw : w.val < 256 := w.isLt
  have hn : n.val < 512 := n.isLt
  funext a
  refine Fin.ext ?_
  match a with
  | ⟨0, _⟩ => show (((b.val * 256 + h.val) * 256 + w.val) * 512 + n.val) / 33554432 = b.val; omega
  | ⟨1, _⟩ => show (((b.val * 256 + h.val) * 256 + w.val) * 512 + n.val) / 131072 % 256 = h.val; omega
  | ⟨2, _⟩ => show (((b.val * 256 + h.val) * 256 + w.val) * 512 + n.val) / 512 % 256 = w.val; omega
  | ⟨3, _⟩ => show (((b.val * 256 + h.val) * 256 + w.val) * 512 + n.val) / 1 % 512 = n.val; omega
  | ⟨4, _⟩ => rfl

/-- The weight broadcast over the two channels. -/
theorem idx_v42 (b : Fin 2) (h w : Fin 256) (n : Fin 512) (k : Fin 2) :
    idx_main_v42 (ix5 b h w n k) = ix5 b h w n (0 : Fin 1) := by
  funext a; match a with | ⟨0, _⟩ => rfl | ⟨1, _⟩ => rfl | ⟨2, _⟩ => rfl | ⟨3, _⟩ => rfl | ⟨4, _⟩ => rfl
/-- The outer sum's operand index. -/
theorem idx_v44 (i : S2x256x256x2.Idx) (n : Fin 512) :
    idx_main_v44 i n = ix5 (i 0) (i 1) (i 2) n (i 3) := by
  funext a; match a with | ⟨0, _⟩ => rfl | ⟨1, _⟩ => rfl | ⟨2, _⟩ => rfl | ⟨3, _⟩ => rfl | ⟨4, _⟩ => rfl

/-! ### The stages at explicit coordinates -/

section Stages
variable (x0 : (⟨S2x512x6, .f32⟩ : BufTy).Contents (Elt Ideal)) (x1 : (⟨S2x256x256x2, .f32⟩ : BufTy).Contents (Elt Ideal))
variable (b : Fin 2) (h w : Fin 256) (n : Fin 512)

/-- The four feature columns the reference uses, per batch and vortex. -/
theorem feat_col0 : val_main_v1 (F := Ideal) x0 (ix2 b n) = x0 (ix3 b n (0 : Fin 6)) := by
  rw [val_main_v1_apply, val_main_v0_apply, idx_col0]
theorem feat_col1 : val_main_v3 (F := Ideal) x0 (ix2 b n) = x0 (ix3 b n (1 : Fin 6)) := by
  rw [val_main_v3_apply, val_main_v2_apply, idx_col1]
theorem feat_col2 : val_main_v5 (F := Ideal) x0 (ix2 b n) = x0 (ix3 b n (2 : Fin 6)) := by
  rw [val_main_v5_apply, val_main_v4_apply, idx_col2]
theorem feat_col3 : val_main_v7 (F := Ideal) x0 (ix2 b n) = x0 (ix3 b n (3 : Fin 6)) := by
  rw [val_main_v7_apply, val_main_v6_apply, idx_col3]

/-- The joined location pair at its first coordinate is column 0 … -/
theorem loc0 : val_main_v14 (F := Ideal) x0 (ix3 b n (0 : Fin 2)) = x0 (ix3 b n (0 : Fin 6)) := by
  unfold val_main_v14
  refine (concatenate_pair_apply_left (2 : Fin S2x512x2.rank) (val_main_v12 (F := Ideal) x0) (val_main_v13 (F := Ideal) x0)
    concatenates_S2x512x1_S2x512x1_S2x512x2_d2 (ix3 b n (0 : Fin 2)) rfl (ix3 b n (0 : Fin 1))
    (fun a => match a with | ⟨0, _⟩ => rfl | ⟨1, _⟩ => rfl | ⟨2, _⟩ => rfl)).trans ?_
  rw [val_main_v12_apply, idx_v12, feat_col0]
/-- … and at its second, column 1. -/
theorem loc1 : val_main_v14 (F := Ideal) x0 (ix3 b n (1 : Fin 2)) = x0 (ix3 b n (1 : Fin 6)) := by
  unfold val_main_v14
  refine (concatenate_pair_apply_right (2 : Fin S2x512x2.rank) (val_main_v12 (F := Ideal) x0) (val_main_v13 (F := Ideal) x0)
    concatenates_S2x512x1_S2x512x1_S2x512x2_d2 (ix3 b n (1 : Fin 2)) rfl rfl (ix3 b n (0 : Fin 1))
    (fun a => match a with
      | ⟨0, _⟩ => fun _ => rfl
      | ⟨1, _⟩ => fun _ => rfl
      | ⟨2, _⟩ => fun hne => absurd rfl hne) rfl).trans ?_
  rw [val_main_v13_apply, idx_v13, feat_col1]

/-- The point's offsets from the vortex: along the first coordinate … -/
theorem diff0 : val_main_v19 (F := Ideal) x0 x1 (ix5 b h w n (0 : Fin 2))
    = x1 (ix4 b h w (0 : Fin 2)) - x0 (ix3 b n (0 : Fin 6)) := by
  rw [val_main_v19_apply, val_main_v17_apply, val_main_v15_apply, idx_v17, val_main_v18_apply, val_main_v16_apply, idx_v18,
    loc0, Ideal.subf_def]
/-- … and along the second. -/
theorem diff1 : val_main_v19 (F := Ideal) x0 x1 (ix5 b h w n (1 : Fin 2))
    = x1 (ix4 b h w (1 : Fin 2)) - x0 (ix3 b n (1 : Fin 6)) := by
  rw [val_main_v19_apply, val_main_v17_apply, val_main_v15_apply, idx_v17, val_main_v18_apply, val_main_v16_apply, idx_v18,
    loc1, Ideal.subf_def]

/-- The squared distance: the sum over the pair of the squared offsets, from the zero word. -/
theorem sqdist : val_main_v21 (F := Ideal) x0 x1 (ix4 b h w n)
    = (x1 (ix4 b h w (0 : Fin 2)) - x0 (ix3 b n (0 : Fin 6))) * (x1 (ix4 b h w (0 : Fin 2)) - x0 (ix3 b n (0 : Fin 6)))
      + (x1 (ix4 b h w (1 : Fin 2)) - x0 (ix3 b n (1 : Fin 6))) * (x1 (ix4 b h w (1 : Fin 2)) - x0 (ix3 b n (1 : Fin 6))) := by
  rw [val_main_v21_apply, Fin.sum_univ_two, idx_v21, idx_v21, val_main_v20_apply, val_main_v20_apply, diff0, diff1,
    val_main_cst_apply, Ideal.ofBits_def, Ideal.ofBits_zero_f32, zero_add, Ideal.mulf_def, Ideal.mulf_def]

/-- The same with a unit axis appended. -/
theorem sqdist1 : val_main_v22 (F := Ideal) x0 x1 (ix5 b h w n (0 : Fin 1))
    = (x1 (ix4 b h w (0 : Fin 2)) - x0 (ix3 b n (0 : Fin 6))) * (x1 (ix4 b h w (0 : Fin 2)) - x0 (ix3 b n (0 : Fin 6)))
      + (x1 (ix4 b h w (1 : Fin 2)) - x0 (ix3 b n (1 : Fin 6))) * (x1 (ix4 b h w (1 : Fin 2)) - x0 (ix3 b n (1 : Fin 6))) := by
  rw [val_main_v22_apply, idx_v22, sqdist]

/-- The squared width, broadcast over the grid. -/
theorem width_sq : val_main_v27 (F := Ideal) x0 (ix5 b h w n (0 : Fin 1))
    = x0 (ix3 b n (3 : Fin 6)) * x0 (ix3 b n (3 : Fin 6)) := by
  rw [val_main_v27_apply, val_main_v26_apply, val_main_v23_apply, idx_v27, feat_col3, Ideal.mulf_def]
/-- The strength, broadcast over the grid. -/
theorem strength : val_main_v32 (F := Ideal) x0 (ix5 b h w n (0 : Fin 1)) = x0 (ix3 b n (2 : Fin 6)) := by
  rw [val_main_v32_apply, val_main_v24_apply, idx_v32, feat_col2]

/-- The vortex's weight at the point is the reference's weight of the two offsets. -/
theorem weight : val_main_v33 (F := Ideal) x0 x1 (ix5 b h w n (0 : Fin 1))
    = wR (x1 (ix4 b h w (0 : Fin 2)) - x0 (ix3 b n (0 : Fin 6))) (x1 (ix4 b h w (1 : Fin 2)) - x0 (ix3 b n (1 : Fin 6)))
        (x0 (ix3 b n (2 : Fin 6))) (x0 (ix3 b n (3 : Fin 6))) := by
  rw [val_main_v33_apply, strength, val_main_v31_apply, val_main_v29_apply, val_main_v28_apply, val_main_v25_apply,
    val_main_v30_apply, sqdist1, width_sq]
  rfl

/-- The joined pair the weight is multiplied by: at its first coordinate the second offset … -/
theorem tang0 : val_main_v41 (F := Ideal) x0 x1 (ix5 b h w n (0 : Fin 2))
    = x1 (ix4 b h w (1 : Fin 2)) - x0 (ix3 b n (1 : Fin 6)) := by
  unfold val_main_v41
  refine (concatenate_pair_apply_left (4 : Fin S2x256x256x512x2.rank) (val_main_v39 (F := Ideal) x0 x1)
    (val_main_v40 (F := Ideal) x0 x1) concatenates_S2x256x256x512x1_S2x256x256x512x1_S2x256x256x512x2_d4
    (ix5 b h w n (0 : Fin 2)) rfl (ix5 b h w n (0 : Fin 1))
    (fun a => match a with | ⟨0, _⟩ => rfl | ⟨1, _⟩ => rfl | ⟨2, _⟩ => rfl | ⟨3, _⟩ => rfl | ⟨4, _⟩ => rfl)).trans ?_
  rw [val_main_v39_apply, idx_v39, val_main_v37_apply, val_main_v36_apply, idx_v37, diff1]
/-- … and at its second the first offset, negated. -/
theorem tang1 : val_main_v41 (F := Ideal) x0 x1 (ix5 b h w n (1 : Fin 2))
    = -(x1 (ix4 b h w (0 : Fin 2)) - x0 (ix3 b n (0 : Fin 6))) := by
  unfold val_main_v41
  refine (concatenate_pair_apply_right (4 : Fin S2x256x256x512x2.rank) (val_main_v39 (F := Ideal) x0 x1)
    (val_main_v40 (F := Ideal) x0 x1) concatenates_S2x256x256x512x1_S2x256x256x512x1_S2x256x256x512x2_d4
    (ix5 b h w n (1 : Fin 2)) rfl rfl (ix5 b h w n (0 : Fin 1))
    (fun a => match a with
      | ⟨0, _⟩ => fun _ => rfl
      | ⟨1, _⟩ => fun _ => rfl
      | ⟨2, _⟩ => fun _ => rfl
      | ⟨3, _⟩ => fun _ => rfl
      | ⟨4, _⟩ => fun hne => absurd rfl hne) rfl).trans ?_
  rw [val_main_v40_apply, idx_v40, val_main_v38_apply, val_main_v35_apply, val_main_v34_apply, idx_v35, diff0,
    Ideal.hostNegf_def, Ideal.negf_def]

/-- One vortex's term of the outer sum, channel 0 … -/
theorem term0 : val_main_v43 (F := Ideal) x0 x1 (ix5 b h w n (0 : Fin 2))
    = contribR (x1 (ix4 b h w (0 : Fin 2))) (x1 (ix4 b h w (1 : Fin 2))) (x0 (ix3 b n (0 : Fin 6))) (x0 (ix3 b n (1 : Fin 6)))
        (x0 (ix3 b n (2 : Fin 6))) (x0 (ix3 b n (3 : Fin 6))) 0 := by
  rw [val_main_v43_apply, val_main_v42_apply, idx_v42, weight, tang0, Ideal.mulf_def]
  unfold contribR
  rw [if_pos rfl]
/-- … and channel 1. -/
theorem term1 : val_main_v43 (F := Ideal) x0 x1 (ix5 b h w n (1 : Fin 2))
    = contribR (x1 (ix4 b h w (0 : Fin 2))) (x1 (ix4 b h w (1 : Fin 2))) (x0 (ix3 b n (0 : Fin 6))) (x0 (ix3 b n (1 : Fin 6)))
        (x0 (ix3 b n (2 : Fin 6))) (x0 (ix3 b n (3 : Fin 6))) 1 := by
  rw [val_main_v43_apply, val_main_v42_apply, idx_v42, weight, tang1, Ideal.mulf_def]
  unfold contribR
  rw [if_neg Nat.one_ne_zero]

/-- Either channel. -/
theorem term (c : Fin 2) : val_main_v43 (F := Ideal) x0 x1 (ix5 b h w n c)
    = contribR (x1 (ix4 b h w (0 : Fin 2))) (x1 (ix4 b h w (1 : Fin 2))) (x0 (ix3 b n (0 : Fin 6))) (x0 (ix3 b n (1 : Fin 6)))
        (x0 (ix3 b n (2 : Fin 6))) (x0 (ix3 b n (3 : Fin 6))) c.val := by
  match c with
  | ⟨0, _⟩ => exact term0 x0 x1 b h w n
  | ⟨1, _⟩ => exact term1 x0 x1 b h w n

end Stages

end RefField

/-- The reference's last stage, at `Ideal`, is `velR` of the two argument arrays. -/
theorem ref_is_velR (x0 : (⟨Cert.ReferenceIdeal.S2x512x6, .f32⟩ : BufTy).Contents (Elt Ideal))
    (x1 : (⟨Cert.ReferenceIdeal.S2x256x256x2, .f32⟩ : BufTy).Contents (Elt Ideal)) :
    Cert.ReferenceIdeal.ReadP.val_main_v44 (F := Ideal) x0 x1 = velR x0 x1 := by
  funext i
  rw [Cert.ReferenceIdeal.ReadP.val_main_v44_apply, Cert.ReferenceIdeal.ReadP.val_main_cst_0_apply, Ideal.ofBits_def,
    Ideal.ofBits_zero_f32, zero_add]
  show _ = ∑ n : Fin 512, contribR (x1 (ix4 (i 0) (i 1) (i 2) (0 : Fin 2))) (x1 (ix4 (i 0) (i 1) (i 2) (1 : Fin 2)))
    (x0 (ix3 (i 0) n (0 : Fin 6))) (x0 (ix3 (i 0) n (1 : Fin 6))) (x0 (ix3 (i 0) n (2 : Fin 6))) (x0 (ix3 (i 0) n (3 : Fin 6))) (i 3).val
  refine Finset.sum_congr rfl fun n _ => ?_
  rw [RefField.idx_v44]
  exact RefField.term x0 x1 (i 0) (i 1) (i 2) n (i 3)

end Cert.VortexField

end
-- ==== Proof.RealInputs.lean ====
/-
  From the precondition to real numbers: where `|x| < +∞` holds of every entry of both argument arrays, every entry is
  a real number.
-/
import proofs.«145549_j83434034692733_1_alg».proof.Pre_finite_inputs
import Idealize.ShloMosaic.PureOps.Ideal
import Idealize.ShloMosaic.Lib.ValueIdx
import Idealize.ShloMosaic.Lib.ReduceAll

noncomputable section

namespace Cert.VortexField

open Idealize.ShloMosaic Idealize.ShloMosaic.ValueIdx

/-- The f32 pattern `0x7F800000` (exponent all ones, significand zero, sign clear) denotes `+∞`. -/
private theorem ofBits_inf : Ideal.ofBits .f32 0x7F800000#32 = (⊤ : EReal) := by
  simp [Ideal.ofBits, Ideal.ieee]

/-- An extended real whose absolute value `max x (-x)` lies below `+∞` is neither infinity: it is a real number. -/
private theorem exists_real_of_abs_lt_top (x : EReal) (hx : max x (-x) < ⊤) : ∃ r : ℝ, x = (r : EReal) := by
  induction x using EReal.rec with
  | bot => simp at hx
  | coe r => exact ⟨r, rfl⟩
  | top => simp at hx

/-- One entry: where the ordered comparison `|x| < +∞` gives the bit 1, `x` is a real number. -/
private theorem exists_real_of_cmp (x : Ideal .f32)
    (hx : FloatOps.cmpf .olt (FloatOps.hostAbsf x) (Ideal.ofBits .f32 0x7F800000#32) = 1#1) :
    ∃ r : ℝ, x = (r : EReal) := by
  refine exists_real_of_abs_lt_top x ?_
  rw [ofBits_inf] at hx
  change BitVec.ofBool (decide (max (x : EReal) (-(x : EReal)) < ⊤)) = 1#1 at hx
  by_contra hn
  rw [decide_eq_false hn] at hx
  exact absurd hx (by decide)

/-- Where the printed precondition is all ones, every entry of both arrays is a real number. -/
theorem real_of_finite_inputs [Cert.Pre_finite_inputs.Facts]
    (a0 : FVec Ideal Cert.Pre_finite_inputs.S2x512x6 .f32) (a1 : FVec Ideal Cert.Pre_finite_inputs.S2x256x256x2 .f32)
    (h : Cert.Pre_finite_inputs.fn (F := Ideal) a0 a1 = fun _ => 1#1) :
    (∀ j, ∃ r : ℝ, a0 j = (r : EReal)) ∧ (∀ j, ∃ r : ℝ, a1 j = (r : EReal)) := by
  haveI : Subsingleton Cert.Pre_finite_inputs.S_.Idx := ⟨fun a b => funext fun d => d.elim0⟩
  have h0 := congrFun h ix0
  dsimp only [Cert.Pre_finite_inputs.fn] at h0
  obtain ⟨h1, h2⟩ := IntOp.andi_eq_one.1 h0
  refine ⟨fun j => exists_real_of_cmp (a0 j) ?_, fun j => exists_real_of_cmp (a1 j) ?_⟩
  · exact Host.reduce_andi_all _ _ _ _ _ h1 j
  · exact Host.reduce_andi_all _ _ _ _ _ h2 j

end Cert.VortexField

end
-- ==== Proof.lean ====
/-
  The certificate: a Pallas kernel for the velocity field of Gaussian vortices against its jnp reference, over the
  extended reals.

  Both programs compute, at every batch `b`, grid position `(h, w)` and channel `c`, the sum over the batch's 512 vortices
  of a weight times an offset: with `dy`, `dx` the point's offsets from the vortex, `s = dy² + dx²`, strength `tau` and
  width `sig`, the kernel's weight is `tau · (exp ((0 - s) · (1 / sig²)) · rsqrt s)` and the reference's
  `tau · (exp ((-s) / sig²) / sqrt s)`; channel 0 multiplies it by `dx`, channel 1 by `-dy`. The kernel works on
  channel-major copies of the two arrays, eight rows of points against a whole vortex table per grid point, and moves
  the channel axis of its result back; the reference forms the `[2, 256, 256, 512, 2]` array of all offsets.

  The two weights are the same real number off two corners, and equal `-∞`-exponent limits at `sig = 0`, `s > 0`; at
  `s = 0` they may differ, but there both offsets vanish and so does every product the weight enters
  (Proof/FalloffLaw.lean). That the inputs are real numbers is the precondition (Proof/RealInputs.lean). The kernel's
  result array is read off its frame run block by block (Proof/KernelBlock.lean, StoredBlock.lean, KernelArray.lean,
  KernelResult.lean), the reference's off its run one operation at a time (Proof/RefField.lean), both as the ONE function
  of the arguments Proof/VelocityField.lean states. The ideal pass rewrote nothing, so `preserves` is `True`.
-/
import proofs.«145549_j83434034692733_1_alg».proof.Defs
import proofs.«145549_j83434034692733_1_alg».proof.Proof.Gen.Kernel
import proofs.«145549_j83434034692733_1_alg».proof.Proof.Gen.Kernel.Skeleton
import proofs.«145549_j83434034692733_1_alg».proof.Proof.Gen.Kernel.Launch
import proofs.«145549_j83434034692733_1_alg».proof.Proof.Gen.Kernel.Points
import proofs.«145549_j83434034692733_1_alg».proof.Proof.Gen.Kernel.Frame
import proofs.«145549_j83434034692733_1_alg».proof.Proof.Gen.KernelIdeal
import proofs.«145549_j83434034692733_1_alg».proof.Proof.Gen.KernelIdeal.Skeleton
import proofs.«145549_j83434034692733_1_alg».proof.Proof.Gen.KernelIdeal.Launch
import proofs.«145549_j83434034692733_1_alg».proof.Proof.Gen.KernelIdeal.Points
import proofs.«145549_j83434034692733_1_alg».proof.Proof.Gen.KernelIdeal.Frame
import proofs.«145549_j83434034692733_1_alg».proof.Proof.Gen.ReferenceIdeal
import proofs.«145549_j83434034692733_1_alg».proof.Proof.Gen.Pre_finite_inputs
import proofs.«145549_j83434034692733_1_alg».proof.Proof.KernelResult
import proofs.«145549_j83434034692733_1_alg».proof.Proof.RefField
import proofs.«145549_j83434034692733_1_alg».proof.Proof.RealInputs
import Idealize.ShloMosaic.Adequacy
import Idealize.ShloMosaic.Init

noncomputable section

namespace Cert.Proof

open Idealize.ShloMosaic Idealize.ShloMosaic.TcCoe Idealize.SL.Sem

/-- The word-level kernel terminates without a fault and keeps its arguments: the frame of its one region. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation of the kernel was rewritten for the reading over the extended reals. -/
theorem preserves : Cert.preserves_Kernel_KernelIdeal := trivial

/-- From memories agreeing on the two arguments, real numbers by the precondition, both programs end with the velocity
    field of the arguments: the kernel in its arrangement, the reference in its own, one function on real inputs. -/
theorem algebraic : Cert.algebraic_KernelIdeal_ReferenceIdeal := by
  intro m ρ m' ρ' hpre hagree
  refine ⟨_, Cert.VortexField.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.VortexField.real_of_finite_inputs _ _ (hpre c)
  rw [Cert.ReferenceIdeal.ReadP.val_main_v44_eq, Cert.VortexField.ref_is_velR, (hagree c).1, (hagree c).2]
  exact (Cert.VortexField.velK_eq_velR _ _ h0 h1).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
